-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : IVec S1x1600000 32 := (extractStridedSlice S1x1600000 ![0, 0] · slices_S2x1600000_S1x1600000_0_0) main_arg1
  let main_v55 : IVec S1600000 32 := shapeCast S1600000 main_v54 shapeCasts_S1x1600000_S1600000
  let main_c_20 : IVec S_ 32 := constantI S_ 32 4294917296#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![0, 0] · slices_S2x1600000_S1x1600000_0_0) main_arg1
  let main_v59 : IVec S1600000 32 := shapeCast S1600000 main_v58 shapeCasts_S1x1600000_S1600000
  let main_c_21 : IVec S_ 32 := constantI S_ 32 50000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  main_v64

def fn_part2 {F : FTy → Type} [FloatOps F] (main_arg1 : IVec S2x1600000 32) (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg1 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S50000 : Shape := ⟨1, ![50000]⟩
abbrev S50000x1 : Shape := ⟨2, ![50000, 1]⟩
abbrev S2000x128 : Shape := ⟨2, ![2000, 128]⟩
abbrev S1x128 : Shape := ⟨2, ![1, 128]⟩
abbrev S50000x40 : Shape := ⟨2, ![50000, 40]⟩
abbrev S2000x40 : Shape := ⟨2, ![2000, 40]⟩
abbrev S1x40 : Shape := ⟨2, ![1, 40]⟩

abbrev nBuf : Space → Nat
  | .hbm => 96
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1, .i32⟩
  | .hbm, ⟨25, _⟩ => ⟨S_, .i32⟩
  | .hbm, ⟨26, _⟩ => ⟨S1600000x1, .i32⟩
  | .hbm, ⟨27, _⟩ => ⟨S1600000x1, .i1⟩
  | .hbm, ⟨28, _⟩ => ⟨S1x1, .i32⟩
  | .hbm, ⟨29, _⟩ => ⟨S1600000x1, .i32⟩
  | .hbm, ⟨30, _⟩ => ⟨S1600000x1, .i1⟩
  | .hbm, ⟨31, _⟩ => ⟨S1600000x1, .i1⟩
  | .hbm, ⟨32, _⟩ => ⟨S_, .i1⟩
  | .hbm, ⟨33, _⟩ => ⟨S1600000, .i1⟩
  | .hbm, ⟨34, _⟩ => ⟨S1600000x128, .f32⟩
  | .hbm, ⟨35, _⟩ => ⟨S1600000x128, .i1⟩
  | .hbm, ⟨36, _⟩ => ⟨S_, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S50000x128, .f32⟩
  | .hbm, ⟨41, _⟩ => ⟨S1600000x1, .i32⟩
  | .hbm, ⟨42, _⟩ => ⟨S50000x128, .f32⟩
  | .hbm, ⟨43, _⟩ => ⟨S_, .f32⟩
  | .hbm, ⟨44, _⟩ => ⟨S1600000, .f32⟩
  | .hbm, ⟨45, _⟩ => ⟨S_, .f32⟩
  | .hbm, ⟨46, _⟩ => ⟨S50000, .f32⟩
  | .hbm, ⟨47, _⟩ => ⟨S1600000x1, .i32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1, .i32⟩
  | .hbm, ⟨65, _⟩ => ⟨S_, .i32⟩
  | .hbm, ⟨66, _⟩ => ⟨S1600000x1, .i32⟩
  | .hbm, ⟨67, _⟩ => ⟨S1600000x1, .i1⟩
  | .hbm, ⟨68, _⟩ => ⟨S1x1, .i32⟩
  | .hbm, ⟨69, _⟩ => ⟨S1600000x1, .i32⟩
  | .hbm, ⟨70, _⟩ => ⟨S1600000x1, .i1⟩
  | .hbm, ⟨71, _⟩ => ⟨S1600000x1, .i1⟩
  | .hbm, ⟨72, _⟩ => ⟨S_, .i1⟩
  | .hbm, ⟨73, _⟩ => ⟨S1600000, .i1⟩
  | .hbm, ⟨74, _⟩ => ⟨S1600000x128, .f32⟩
  | .hbm, ⟨75, _⟩ => ⟨S1600000x128, .i1⟩
  | .hbm, ⟨76, _⟩ => ⟨S_, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S50000x128, .f32⟩
  | .hbm, ⟨81, _⟩ => ⟨S1600000x1, .i32⟩
  | .hbm, ⟨82, _⟩ => ⟨S50000x128, .f32⟩
  | .hbm, ⟨83, _⟩ => ⟨S_, .f32⟩
  | .hbm, ⟨84, _⟩ => ⟨S1600000, .f32⟩
  | .hbm, ⟨85, _⟩ => ⟨S_, .f32⟩
  | .hbm, ⟨86, _⟩ => ⟨S50000, .f32⟩
  | .hbm, ⟨87, _⟩ => ⟨S1600000x1, .i32⟩
  | .hbm, ⟨88, _⟩ => ⟨S50000, .f32⟩
  | .hbm, ⟨89, _⟩ => ⟨S_, .f32⟩
  | .hbm, ⟨90, _⟩ => ⟨S50000, .f32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S128x40, .f32⟩
  | .local _ .vmem, ⟨19, _⟩ => ⟨S40, .f32⟩
  | .local _ .vmem, ⟨20, _⟩ => ⟨S2000x40, .f32⟩
  | .local _ .vmem, ⟨21, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_0 : Ref sig .tc := ⟨.hbm, 43, rfl⟩
abbrev main_v8 : Ref sig .tc := ⟨.hbm, 44, rfl⟩
abbrev main_cst_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_2 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v18 : Ref sig .tc := ⟨.hbm, 78, rfl⟩
abbrev main_cst_3 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_cst_4 : Ref sig .tc := ⟨.hbm, 83, rfl⟩
abbrev main_v22 : Ref sig .tc := ⟨.hbm, 84, rfl⟩
abbrev main_cst_5 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_6 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x40.size a ≤ S128x40.size a
  hwx1_6 : ∀ i : grid1.Coords, EltTy.bits .f32 = 32 ∨ (Rect.block (s := S128x40) S128x40.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S40.size a ≤ S40.size a
  hwx1_7 : ∀ i : grid1.Coords, EltTy.bits .f32 = 32 ∨ (Rect.block (s := S40) S40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x40.size a ≤ S50000x40.size a
  hwx1_8 : ∀ i : grid1.Coords, EltTy.bits .f32 = 32 ∨ (Rect.block (s := S50000x40) S2000x40.size (cc1_transform_8 i) (hinb1_8 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S2000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S50000x40 : Shape := ⟨2, ![50000, 40]⟩
abbrev S1x40 : Shape := ⟨2, ![1, 40]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S50000x128, .f32⟩
  | .hbm, ⟨27, _⟩ => ⟨S1600000x1, .i32⟩
  | .hbm, ⟨28, _⟩ => ⟨S50000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S50000, .f32⟩
  | .hbm, ⟨33, _⟩ => ⟨S1600000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S50000x128, .f32⟩
  | .hbm, ⟨64, _⟩ => ⟨S1600000x1, .i32⟩
  | .hbm, ⟨65, _⟩ => ⟨S50000x128, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S50000, .f32⟩
  | .hbm, ⟨70, _⟩ => ⟨S1600000x1, .i32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x40, .f32⟩
  | .hbm, ⟨91, _⟩ => ⟨S1x40, .f32⟩
  | .hbm, ⟨92, _⟩ => ⟨S50000x40, .f32⟩
  | .hbm, ⟨93, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call1_cst : Ref sig .tc := ⟨.hbm, 87, rfl⟩
abbrev main_call1_v0 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.MeanAgg.lean ====
/-
  The neighbourhood mean, as ONE function of the edge list and the node features.

  An edge list holds, for every edge, a source node (row 0) and a destination node (row 1).  A negative source index
  counts from the end (50000 is added to it).  The mean at a node is the sum of the source rows of the edges that end
  at it, divided by the number of such edges, or by one where there are none.  The sum and the count are scatter-adds
  into zero arrays; the rows are one row gather.  Nothing here is opened by the proofs that use it: both programs apply
  these same operations, and they are carried as this function.
-/
import proofs.«418907_j13572096655879_1_alg».proof.Proof.Gen.ReferenceIdeal

noncomputable section

namespace Cert.ReferenceIdeal.Dense

open Cert.ReferenceIdeal Cert.ReferenceIdeal.Gen Idealize.ShloMosaic

variable {F : FTy → Type} [FloatOps F]

/-- Row 0 of the edge list: every edge's source node. -/
def srcRow (ei : IVec S2x1600000 32) : IVec S1600000 32 :=
  shapeCast _ (extractStridedSlice S1x1600000 ![0, 0] ei slices_S2x1600000_S1x1600000_0_0) shapeCasts_S1x1600000_S1600000

/-- Row 1 of the edge list: every edge's destination node. -/
def dstRow (ei : IVec S2x1600000 32) : IVec S1600000 32 :=
  shapeCast _ (extractStridedSlice S1x1600000 ![1, 0] ei slices_S2x1600000_S1x1600000_1_0) shapeCasts_S1x1600000_S1600000

/-- A node index with the negative ones counted from the end: `s + 50000` where `s < 0`, else `s`. -/
def wrapped (s : IVec S1600000 32) : IVec S1600000 32 :=
  select (cmpi .slt s (broadcastInDim S1600000 ![] bcast_S_S1600000 (constantI S_ 32 0#32)))
    (addi s (broadcastInDim S1600000 ![] bcast_S_S1600000 (constantI S_ 32 50000#32))) s

/-- The wrapped source indices as the one-column table a row gather takes. -/
def srcCol (ei : IVec S2x1600000 32) : IVec S1600000x1 32 :=
  broadcastInDim S1600000x1 ![0] bcast_S1600000_S1600000x1_0 (wrapped (srcRow ei))

/-- The mean over incoming edges of per-edge rows `msg`, for destinations `d`: the scatter-added rows over the
    scatter-added count, the count raised to one where it is zero. -/
def meanOver (d : IVec S1600000 32) (msg : FVec F S1600000x128 .f32) : FVec F S50000x128 .f32 :=
  Host.divf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 d) msg)
    (broadcastInDim S50000x128 ![0, 1] bcast_S50000x1_S50000x128_0_1
      (broadcastInDim S50000x1 ![0] bcast_S50000_S50000x1_0
        (maximumf
          (Host.scatterAdd scatter_S50000_S1600000x1_S1600000_n_0_0_1
            (broadcastInDim S50000 ![] bcast_S_S50000 (constant S_ .f32 0x00000000#32))
            (broadcastInDim S1600000x1 ![0] bcast_S1600000_S1600000x1_0 d)
            (broadcastInDim S1600000 ![] bcast_S_S1600000 (constant S_ .f32 0x3F800000#32)))
          (broadcastInDim S50000 ![] bcast_S_S50000 (constant S_ .f32 0x3F800000#32)))))

/-- The neighbourhood mean of the features `feat` along the edges `ei`. -/
def agg (ei : IVec S2x1600000 32) (feat : FVec F S50000x128 .f32) : FVec F S50000x128 .f32 :=
  meanOver (dstRow ei) (Host.gather gather_S50000x128_S1600000x1_S1600000x128_1_0_n_n_0_1_1128 feat (srcCol ei))

end Cert.ReferenceIdeal.Dense

end
-- ==== Proof.Words.lean ====
/-
  Node indices as 32-bit words.

  A source index `s` is admitted when `-50000 ≤ s < 50000` as a signed number.  Counting the negative ones from the end,
  `s + 50000` where `s < 0` and `s` otherwise, gives a number in `[0, 49999]`: a row of a 50000-row table.  The sum
  does not wrap, because `s + 50000` lies in `[0, 50000)`, far inside the signed range of 32 bits.
-/
import Idealize.ShloMosaic.PureOps.Float

namespace NodeIndex

open Idealize.ShloMosaic

theorem ofBool_eq_one_iff (b : Bool) : BitVec.ofBool b = 1#1 ↔ b = true := by cases b <;> decide

/-- Signed "at least", as a compare bit. -/
theorem cmpi_sge_iff (a b : BitVec 32) : IntOp.cmpi .sge a b = 1#1 ↔ b.toInt ≤ a.toInt := by
  simp only [IntOp.cmpi, BitVec.sle, ofBool_eq_one_iff, decide_eq_true_eq]

/-- Signed "at most", as a compare bit. -/
theorem cmpi_sle_iff (a b : BitVec 32) : IntOp.cmpi .sle a b = 1#1 ↔ a.toInt ≤ b.toInt := by
  simp only [IntOp.cmpi, BitVec.sle, ofBool_eq_one_iff, decide_eq_true_eq]

/-- Signed "less than", as a compare bit. -/
theorem cmpi_slt_iff (a b : BitVec 32) : IntOp.cmpi .slt a b = 1#1 ↔ a.toInt < b.toInt := by
  simp only [IntOp.cmpi, BitVec.slt, ofBool_eq_one_iff, decide_eq_true_eq]

/-- An admitted source index, with the negative ones counted from the end, is a row number of the table: at least 0 and at
    most 49999. -/
theorem wrapped_in_range (s : BitVec 32)
    (hlo : IntOp.cmpi .sge s 4294917296#32 = 1#1) (hhi : IntOp.cmpi .slt s 50000#32 = 1#1) :
    IntOp.cmpi .sge (Scalar.select (IntOp.cmpi .slt s 0#32) (IntOp.addi s 50000#32) s) 0#32 = 1#1
      ∧ IntOp.cmpi .sle (Scalar.select (IntOp.cmpi .slt s 0#32) (IntOp.addi s 50000#32) s) 49999#32 = 1#1 := by
  have e1 : (4294917296#32 : BitVec 32).toInt = -50000 := by decide
  have e2 : (50000#32 : BitVec 32).toInt = 50000 := by decide
  have e0 : (0#32 : BitVec 32).toInt = 0 := by decide
  have e3 : (49999#32 : BitVec 32).toInt = 49999 := by decide
  rw [cmpi_sge_iff, e1] at hlo
  rw [cmpi_slt_iff, e2] at hhi
  unfold Scalar.select
  by_cases hneg : IntOp.cmpi .slt s 0#32 = (1 : BitVec 1)
  · rw [if_pos hneg]
    have hneg' : IntOp.cmpi .slt s 0#32 = 1#1 := hneg
    have hs : s.toInt < 0 := by rw [cmpi_slt_iff, e0] at hneg'; exact hneg'
    have hadd : (IntOp.addi s 50000#32).toInt = s.toInt + 50000 := by
      unfold IntOp.addi
      rw [BitVec.toInt_add, e2, Int.bmod_def]
      omega
    rw [cmpi_sge_iff, cmpi_sle_iff, hadd, e0, e3]
    omega
  · rw [if_neg hneg]
    have hneg' : ¬ IntOp.cmpi .slt s 0#32 = 1#1 := hneg
    have hs : ¬ s.toInt < 0 := by rw [cmpi_slt_iff, e0] at hneg'; exact hneg'
    rw [cmpi_sge_iff, cmpi_sle_iff, e0, e3]
    omega

end NodeIndex
-- ==== Proof.LibAndReduce.lean ====
/-
  An `and`-reduction of one-bit words that are all 1, from the initial word 1, is 1.

  The library reads a printed `jnp.all` in one direction (`Host.reduce_andi_eq_one`: the result is 1, so every
  word that reduces into it is 1).  This is the other direction, for a mask a program computes and a proof must
  show to be all ones: a left fold by `and` from 1 over words that are all 1 stays 1.  Stated for any shapes and
  axes.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι) (init : BitVec 1), init = 1#1 → (∀ n ∈ l, f n = 1#1) → l.foldl (fun r n => andi r (f n)) init = 1#1
  | [], _, h, _ => h
  | a :: l, init, h, hl =>
    foldl_andi_of_all f l _ (andi_eq_one.2 ⟨h, hl a (List.mem_cons_self ..)⟩) (fun n hn => hl n (List.mem_cons_of_mem _ hn))

end IntOp

namespace Host

variable {s t u : Shape} {axes : List (Fin s.rank)}

/-- A `stablehlo.reduce` by `and` from the initial word 1 of an operand that is 1 everywhere is 1 at every index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit (fun i _ => hx i)

end Host

end Idealize.ShloMosaic
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.HostSide.lean ====
/-
  The kernel's host side: what the buffers hold when each pallas_call is entered.

  Before each call the program computes the neighbourhood mean of a feature table along the edge list: the source
  indices with the negative ones counted from the end; a row gather that keeps a gathered row only where the counted
  index lies in [0, 49999] and puts the fill word (a NaN pattern) elsewhere; the scatter-added rows over the
  scatter-added edge count (raised to one where it is zero).  `meanRows` is that computation as one function of the
  source row, the destination row and the feature table.  Where every source index is admitted
  (-50000 ≤ s < 50000) the range test holds on every edge, the fill is never taken, and the computation is the plain
  neighbourhood mean `Cert.ReferenceIdeal.Dense.agg`.
-/
import proofs.«418907_j13572096655879_1_alg».proof.Proof.Gen.KernelIdeal.Frame
import proofs.«418907_j13572096655879_1_alg».proof.Proof.MeanAgg
import proofs.«418907_j13572096655879_1_alg».proof.Proof.Words
import proofs.«418907_j13572096655879_1_alg».proof.Proof.LibAndReduce
import proofs.«418907_j13572096655879_1_alg».proof.Proof.LibTypedRef
import Idealize.ShloMosaic.Lib.StableHlo.Run
import Idealize.ShloMosaic.Lib.ValueIdx

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]

/-- Row 0 of the edge list: every edge's source node. -/
def srcRow (ei : IVec S2x1600000 32) : IVec S1600000 32 :=
  shapeCast _ (extractStridedSlice S1x1600000 ![0, 0] ei slices_S2x1600000_S1x1600000_0_0) shapeCasts_S1x1600000_S1600000

/-- Row 1 of the edge list: every edge's destination node. -/
def dstRow (ei : IVec S2x1600000 32) : IVec S1600000 32 :=
  shapeCast _ (extractStridedSlice S1x1600000 ![1, 0] ei slices_S2x1600000_S1x1600000_1_0) shapeCasts_S1x1600000_S1600000

/-- A node index with the negative ones counted from the end: `s + 50000` where `s < 0`, else `s`. -/
def wrapped (s : IVec S1600000 32) : IVec S1600000 32 :=
  select (cmpi .slt s (broadcastInDim S1600000 ![] bcast_S_S1600000 (constantI S_ 32 0#32)))
    (addi s (broadcastInDim S1600000 ![] bcast_S_S1600000 (constantI S_ 32 50000#32))) s

/-- The counted source indices as the one-column table a row gather takes. -/
def wrappedCol (s : IVec S1600000 32) : IVec S1600000x1 32 :=
  broadcastInDim S1600000x1 ![0] bcast_S1600000_S1600000x1_0 (wrapped s)

/-- Per edge: does the index lie in the table, 0 ≤ i ≤ 49999?  (An and over the one column of the index table.) -/
def inTable (i : IVec S1600000x1 32) : IVec S1600000 1 :=
  Host.reduce IntOp.andi
    (andi (cmpi .sge i (broadcastInDim S1600000x1 ![] bcast_S_S1600000x1 (constantI S_ 32 0#32)))
      (cmpi .sle i (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The row gather with a fill: the gathered row where the index lies in the table, the fill word elsewhere. -/
def taken (feat : FVec F S50000x128 .f32) (i : IVec S1600000x1 32) : FVec F S1600000x128 .f32 :=
  select (broadcastInDim S1600000x128 ![0] bcast_S1600000_S1600000x128_0 (inTable i))
    (Host.gather gather_S50000x128_S1600000x1_S1600000x128_1_0_n_n_0_1_1128 feat i)
    (broadcastInDim S1600000x128 ![] bcast_S_S1600000x128 (constant S_ .f32 0x7FC00000#32))

/-- The mean over incoming edges of per-edge rows `msg`, for destinations `d`. -/
def meanOver (d : IVec S1600000 32) (msg : FVec F S1600000x128 .f32) : FVec F S50000x128 .f32 :=
  Host.divf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 d) msg)
    (broadcastInDim S50000x128 ![0, 1] bcast_S50000x1_S50000x128_0_1
      (broadcastInDim S50000x1 ![0] bcast_S50000_S50000x1_0
        (maximumf
          (Host.scatterAdd scatter_S50000_S1600000x1_S1600000_n_0_0_1
            (broadcastInDim S50000 ![] bcast_S_S50000 (constant S_ .f32 0x00000000#32))
            (broadcastInDim S1600000x1 ![0] bcast_S1600000_S1600000x1_0 d)
            (broadcastInDim S1600000 ![] bcast_S_S1600000 (constant S_ .f32 0x3F800000#32)))
          (broadcastInDim S50000 ![] bcast_S_S50000 (constant S_ .f32 0x3F800000#32)))))

/-- The program's neighbourhood mean, from the source row `s`, the destination row `d` and the features. -/
def meanRows (s d : IVec S1600000 32) (feat : FVec F S50000x128 .f32) : FVec F S50000x128 .f32 :=
  meanOver d (taken feat (wrappedCol s))

/-! ## Moving contents through a typed reference whose buffer already has the value's type is the identity -/

theorem toBuf_msg0 (v : (⟨S1600000x128, .f32⟩ : BufTy).Contents (Elt F)) :
    (TRef.of (sig := sig) (T := ⟨S1600000x128, .f32⟩) main_v4).toBuf v = v := rfl
theorem toBuf_msg1 (v : (⟨S1600000x128, .f32⟩ : BufTy).Contents (Elt F)) :
    (TRef.of (sig := sig) (T := ⟨S1600000x128, .f32⟩) main_v18).toBuf v = v := rfl
theorem ofBuf_src (v : (⟨S1600000, .i32⟩ : BufTy).Contents (Elt F)) :
    (TRef.of (sig := sig) (T := ⟨S1600000, .i32⟩) main_v1).ofBuf v = v := rfl
theorem ofBuf_feat0 (v : (⟨S50000x128, .f32⟩ : BufTy).Contents (Elt F)) :
    (TRef.of (sig := sig) (T := ⟨S50000x128, .f32⟩) main_arg0).ofBuf v = v := rfl
theorem ofBuf_feat1 (v : (⟨S50000x128, .f32⟩ : BufTy).Contents (Elt F)) :
    (TRef.of (sig := sig) (T := ⟨S50000x128, .f32⟩) main_v17).ofBuf v = v := rfl

variable (m : (ℓ : Loc nD τ sig) → Buf (Elt F) ℓ) (ρ : Dev nD → PrngReg)

/-! ## The first call's entry contents -/

/-- The source row, once computed, is row 0 of the launch edge list. -/
theorem entry0_src (c : Dev nD) : W3 m ρ c (Proc.devRef .tc main_v1) = srcRow (m ((c : Thread nD τ).loc main_arg1)) := by
  show StableHlo.after hostOps0_2 (StableHlo.after hostOps0_1 (StableHlo.after hostOps0 (W0 m ρ c))) (Proc.devRef .tc main_v1) = _
  after_results_simp
  rfl

/-- The destination row is row 1 of the launch edge list. -/
theorem entry0_dst (c : Dev nD) : W3 m ρ c (Proc.devRef .tc main_v3) = dstRow (m ((c : Thread nD τ).loc main_arg1)) := by
  show StableHlo.after hostOps0_2 (StableHlo.after hostOps0_1 (StableHlo.after hostOps0 (W0 m ρ c))) (Proc.devRef .tc main_v3) = _
  after_results_simp
  rfl

/-- The first call's aggregate operand is the program's mean of the launch features. -/
theorem entry0_mean (c : Dev nD) :
    V3 m ρ c main_v16
      = meanRows (srcRow (m ((c : Thread nD τ).loc main_arg1))) (dstRow (m ((c : Thread nD τ).loc main_arg1)))
          (m ((c : Thread nD τ).loc main_arg0)) := by
  show StableHlo.after hostOps0_2 (StableHlo.after hostOps0_1 (StableHlo.after hostOps0 (W0 m ρ c))) (Proc.devRef .tc main_v16) = _
  after_results_simp
  simp only [TRef.ofBuf_toBuf]
  simp only [toBuf_msg0, ofBuf_src, ofBuf_feat0]
  rfl

/-- The first call's other operands are launch arguments: no host line writes an argument. -/
theorem entry0_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp
theorem entry0_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp
theorem entry0_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp
theorem entry0_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  after_results_simp
theorem entry0_arg5 (c : Dev nD) : V3 m ρ c main_arg5 = m ((c : Thread nD τ).loc main_arg5) := by
  show StableHlo.after hostOps0_2 (StableHlo.after hostOps0_1 (StableHlo.after hostOps0 (W0 m ρ c))) (Proc.devRef .tc main_arg5) = _
  after_results_simp

/-! ## The second call's entry contents

Between the two calls the buffers are what the first call left (`W4`: its output array at what its points wrote back,
everything else as it found them); the host lines that follow compute the mean of the first call's output. -/

/-- The source row is not touched by the first call. -/
theorem mid_src (c : Dev nD) : W4 m ρ c (Proc.devRef .tc main_v1) = srcRow (m ((c : Thread nD τ).loc main_arg1)) :=
  (W4_of_ne m ρ c main_v1 (by decide)).trans (entry0_src m ρ c)

/-- Nor is the destination row. -/
theorem mid_dst (c : Dev nD) : W4 m ρ c (Proc.devRef .tc main_v3) = dstRow (m ((c : Thread nD τ).loc main_arg1)) :=
  (W4_of_ne m ρ c main_v3 (by decide)).trans (entry0_dst m ρ c)

/-- The second call's aggregate operand is the program's mean of the first call's output array. -/
theorem entry1_mean (c : Dev nD) :
    V6 m ρ c main_v30
      = meanRows (srcRow (m ((c : Thread nD τ).loc main_arg1))) (dstRow (m ((c : Thread nD τ).loc main_arg1)))
          (V4 m ρ c main_v17) := by
  show StableHlo.after hostOps1_1 (StableHlo.after hostOps1 (W4 m ρ c)) (Proc.devRef .tc main_v30) = _
  after_results_simp
  simp only [TRef.ofBuf_toBuf]
  simp only [toBuf_msg1, ofBuf_src, ofBuf_feat1]
  rw [mid_src, mid_dst]
  rfl

/-- The second call reads the first call's output array as it was left. -/
theorem entry1_feat (c : Dev nD) : V6 m ρ c main_v17 = V4 m ρ c main_v17 := by
  show StableHlo.after hostOps1_1 (StableHlo.after hostOps1 (W4 m ρ c)) (Proc.devRef .tc main_v17) = _
  after_results_simp

/-- The second call's weights and biases are launch arguments: neither a host line nor the first call writes one. -/
theorem entry1_arg6 (c : Dev nD) : V6 m ρ c main_arg6 = m ((c : Thread nD τ).loc main_arg6) := by
  show StableHlo.after hostOps1_1 (StableHlo.after hostOps1 (W4 m ρ c)) (Proc.devRef .tc main_arg6) = _
  after_results_simp
  rw [W4_of_ne m ρ c main_arg6 (by decide)]
  show StableHlo.after hostOps0_2 (StableHlo.after hostOps0_1 (StableHlo.after hostOps0 (W0 m ρ c))) (Proc.devRef .tc main_arg6) = _
  after_results_simp
theorem entry1_arg7 (c : Dev nD) : V6 m ρ c main_arg7 = m ((c : Thread nD τ).loc main_arg7) := by
  show StableHlo.after hostOps1_1 (StableHlo.after hostOps1 (W4 m ρ c)) (Proc.devRef .tc main_arg7) = _
  after_results_simp
  rw [W4_of_ne m ρ c main_arg7 (by decide)]
  show StableHlo.after hostOps0_2 (StableHlo.after hostOps0_1 (StableHlo.after hostOps0 (W0 m ρ c))) (Proc.devRef .tc main_arg7) = _
  after_results_simp
theorem entry1_arg8 (c : Dev nD) : V6 m ρ c main_arg8 = m ((c : Thread nD τ).loc main_arg8) := by
  show StableHlo.after hostOps1_1 (StableHlo.after hostOps1 (W4 m ρ c)) (Proc.devRef .tc main_arg8) = _
  after_results_simp
  rw [W4_of_ne m ρ c main_arg8 (by decide)]
  show StableHlo.after hostOps0_2 (StableHlo.after hostOps0_1 (StableHlo.after hostOps0 (W0 m ρ c))) (Proc.devRef .tc main_arg8) = _
  after_results_simp
theorem entry1_arg9 (c : Dev nD) : V6 m ρ c main_arg9 = m ((c : Thread nD τ).loc main_arg9) := by
  show StableHlo.after hostOps1_1 (StableHlo.after hostOps1 (W4 m ρ c)) (Proc.devRef .tc main_arg9) = _
  after_results_simp
  rw [W4_of_ne m ρ c main_arg9 (by decide)]
  show StableHlo.after hostOps0_2 (StableHlo.after hostOps0_1 (StableHlo.after hostOps0 (W0 m ρ c))) (Proc.devRef .tc main_arg9) = _
  after_results_simp
theorem entry1_arg10 (c : Dev nD) : V6 m ρ c main_arg10 = m ((c : Thread nD τ).loc main_arg10) := by
  show StableHlo.after hostOps1_1 (StableHlo.after hostOps1 (W4 m ρ c)) (Proc.devRef .tc main_arg10) = _
  after_results_simp
  rw [W4_of_ne m ρ c main_arg10 (by decide)]
  show StableHlo.after hostOps0_2 (StableHlo.after hostOps0_1 (StableHlo.after hostOps0 (W0 m ρ c))) (Proc.devRef .tc main_arg10) = _
  after_results_simp
theorem entry1_arg11 (c : Dev nD) : V6 m ρ c main_arg11 = m ((c : Thread nD τ).loc main_arg11) := by
  show StableHlo.after hostOps1_1 (StableHlo.after hostOps1 (W4 m ρ c)) (Proc.devRef .tc main_arg11) = _
  after_results_simp
  rw [W4_of_ne m ρ c main_arg11 (by decide)]
  show StableHlo.after hostOps0_2 (StableHlo.after hostOps0_1 (StableHlo.after hostOps0 (W0 m ρ c))) (Proc.devRef .tc main_arg11) = _
  after_results_simp

/-! ## Where every source index is admitted, the fill is never taken -/

/-- The counted index of an edge, spelt out: `s + 50000` where `s < 0`, else `s`. -/
theorem wrapped_apply (s : IVec S1600000 32) (j : S1600000.Idx) :
    wrapped s j = Scalar.select (IntOp.cmpi .slt (s j) 0#32) (IntOp.addi (s j) 50000#32) (s j) := rfl

/-- A property of every entry of a vector holds of every entry of the vector laid out as one column: each entry of the
    column is an entry of the vector. -/
theorem column_entry (w : IVec S1600000 32) (P : BitVec 32 → Prop) (h : ∀ j : S1600000.Idx, P (w j)) (i : S1600000x1.Idx) :
    P (broadcastInDim S1600000x1 ![0] bcast_S1600000_S1600000x1_0 w i) := h _

/-- Admitted source indices, counted from the end where negative, all lie in the table: the range test is 1 on every
    edge. -/
theorem inTable_all (s : IVec S1600000 32)
    (hs : ∀ e : S1600000.Idx, IntOp.cmpi .sge (s e) 4294917296#32 = 1#1 ∧ IntOp.cmpi .slt (s e) 50000#32 = 1#1) :
    inTable (wrappedCol s) = fun _ => 1#1 := by
  funext e
  unfold inTable
  refine Host.reduce_andi_of_all _ _ _ _ rfl (fun i => ?_) e
  show IntOp.andi (IntOp.cmpi .sge (wrappedCol s i) 0#32) (IntOp.cmpi .sle (wrappedCol s i) 49999#32) = 1#1
  exact IntOp.andi_eq_one.2 (column_entry (wrapped s)
    (fun v => IntOp.cmpi .sge v 0#32 = 1#1 ∧ IntOp.cmpi .sle v 49999#32 = 1#1)
    (fun j => by rw [wrapped_apply]; exact NodeIndex.wrapped_in_range (s j) (hs j).1 (hs j).2) i)

/-- So the gather with a fill is the plain gather. -/
theorem taken_eq_gather (feat : FVec F S50000x128 .f32) (s : IVec S1600000 32)
    (hs : ∀ e : S1600000.Idx, IntOp.cmpi .sge (s e) 4294917296#32 = 1#1 ∧ IntOp.cmpi .slt (s e) 50000#32 = 1#1) :
    taken feat (wrappedCol s)
      = Host.gather gather_S50000x128_S1600000x1_S1600000x128_1_0_n_n_0_1_1128 feat (wrappedCol s) := by
  unfold taken
  rw [inTable_all s hs]
  funext i
  exact ValueIdx.select_one _ _

/-- And the program's mean is the neighbourhood mean. -/
theorem meanRows_eq_agg (ei : IVec S2x1600000 32) (feat : FVec F S50000x128 .f32)
    (hs : ∀ e : S1600000.Idx, IntOp.cmpi .sge (srcRow ei e) 4294917296#32 = 1#1 ∧ IntOp.cmpi .slt (srcRow ei e) 50000#32 = 1#1) :
    meanRows (srcRow ei) (dstRow ei) feat = Cert.ReferenceIdeal.Dense.agg ei feat := by
  unfold meanRows
  rw [taken_eq_gather feat _ hs]
  rfl

end Cert.KernelIdeal.HostSide

end
-- ==== Proof.Spec.lean ====
/-
  One graph-convolution step and the read-out, entry by entry, on the extended reals.

  A step takes the neighbourhood mean `a` and the node features `x` (both N rows of D numbers), two D × H weight
  matrices and two bias vectors, and gives at row p, column q

      max (((Σ_k a(p,k)·Wl(k,q) + bl(q)) + Σ_k x(p,k)·Wr(k,q)) + br(q), 0).

  The read-out multiplies a row by an H × C matrix and adds a bias.  Both are ROW-WISE: row p of the result depends on
  row p of the row operands only, so the result over a block of consecutive rows is the block of the result.  The two
  ways of adding up the four summands (the two products first, then the biases; or product, bias, product, bias) agree
  because addition on the extended reals is commutative and associative.
-/
import Idealize.ShloMosaic.PureOps.Ideal
import Idealize.ShloMosaic.Lib.ValueIdx

noncomputable section

open scoped BigOperators

namespace Sage

open Idealize.ShloMosaic Idealize.ShloMosaic.ValueIdx

variable {N N' D H C : Nat}

/-- Entry (p, q) of one step: product with the left weights, its bias, product with the right weights, its bias, then
    the positive part. -/
def layerAt (a x : FVec Ideal ⟨2, ![N, D]⟩ .f32) (wl wr : FVec Ideal ⟨2, ![D, H]⟩ .f32) (bl br : FVec Ideal ⟨1, ![H]⟩ .f32)
    (p : Fin N) (q : Fin H) : Ideal .f32 :=
  max ((((∑ k : Fin D, a (ix2 p k) * wl (ix2 k q)) + bl (ix1 q)) + ∑ k : Fin D, x (ix2 p k) * wr (ix2 k q)) + br (ix1 q)) 0

/-- One step as a whole array. -/
def layer (a x : FVec Ideal ⟨2, ![N, D]⟩ .f32) (wl wr : FVec Ideal ⟨2, ![D, H]⟩ .f32) (bl br : FVec Ideal ⟨1, ![H]⟩ .f32) :
    FVec Ideal ⟨2, ![N, H]⟩ .f32 :=
  fun i => layerAt a x wl wr bl br (i 0) (i 1)

/-- Entry (p, q) of the read-out: a row times the output weights, plus the output bias. -/
def projAt (h : FVec Ideal ⟨2, ![N, H]⟩ .f32) (wo : FVec Ideal ⟨2, ![H, C]⟩ .f32) (bo : FVec Ideal ⟨1, ![C]⟩ .f32)
    (p : Fin N) (q : Fin C) : Ideal .f32 :=
  (∑ k : Fin H, h (ix2 p k) * wo (ix2 k q)) + bo (ix1 q)

/-- The read-out as a whole array. -/
def proj (h : FVec Ideal ⟨2, ![N, H]⟩ .f32) (wo : FVec Ideal ⟨2, ![H, C]⟩ .f32) (bo : FVec Ideal ⟨1, ![C]⟩ .f32) :
    FVec Ideal ⟨2, ![N, C]⟩ .f32 :=
  fun i => projAt h wo bo (i 0) (i 1)

theorem layer_apply (a x : FVec Ideal ⟨2, ![N, D]⟩ .f32) (wl wr : FVec Ideal ⟨2, ![D, H]⟩ .f32) (bl br : FVec Ideal ⟨1, ![H]⟩ .f32)
    (p : Fin N) (q : Fin H) : layer a x wl wr bl br (ix2 p q) = layerAt a x wl wr bl br p q := rfl

theorem proj_apply (h : FVec Ideal ⟨2, ![N, H]⟩ .f32) (wo : FVec Ideal ⟨2, ![H, C]⟩ .f32) (bo : FVec Ideal ⟨1, ![C]⟩ .f32)
    (p : Fin N) (q : Fin C) : proj h wo bo (ix2 p q) = projAt h wo bo p q := rfl

/-- Adding the two products first and the two biases afterwards gives the same entry: the sum of four extended reals
    does not depend on the order. -/
theorem layerAt_products_first (a x : FVec Ideal ⟨2, ![N, D]⟩ .f32) (wl wr : FVec Ideal ⟨2, ![D, H]⟩ .f32)
    (bl br : FVec Ideal ⟨1, ![H]⟩ .f32) (p : Fin N) (q : Fin H) :
    max ((((∑ k : Fin D, a (ix2 p k) * wl (ix2 k q)) + ∑ k : Fin D, x (ix2 p k) * wr (ix2 k q)) + bl (ix1 q)) + br (ix1 q)) 0
      = layerAt a x wl wr bl br p q := by
  unfold layerAt
  rw [add_right_comm (∑ k : Fin D, a (ix2 p k) * wl (ix2 k q))]

/-- An entry of a step depends on one row of each row operand: two pairs of operands that agree on a row give the same
    entries along it (the rows may sit at different positions of arrays of different heights). -/
theorem layerAt_row (a x : FVec Ideal ⟨2, ![N, D]⟩ .f32) (a' x' : FVec Ideal ⟨2, ![N', D]⟩ .f32)
    (wl wr : FVec Ideal ⟨2, ![D, H]⟩ .f32) (bl br : FVec Ideal ⟨1, ![H]⟩ .f32) (p : Fin N) (p' : Fin N') (q : Fin H)
    (ha : ∀ k : Fin D, a' (ix2 p' k) = a (ix2 p k)) (hx : ∀ k : Fin D, x' (ix2 p' k) = x (ix2 p k)) :
    layerAt a' x' wl wr bl br p' q = layerAt a x wl wr bl br p q := by
  unfold layerAt
  simp only [ha, hx]

/-- Likewise for the read-out. -/
theorem projAt_row (h : FVec Ideal ⟨2, ![N, H]⟩ .f32) (h' : FVec Ideal ⟨2, ![N', H]⟩ .f32)
    (wo : FVec Ideal ⟨2, ![H, C]⟩ .f32) (bo : FVec Ideal ⟨1, ![C]⟩ .f32) (p : Fin N) (p' : Fin N') (q : Fin C)
    (hh : ∀ k : Fin H, h' (ix2 p' k) = h (ix2 p k)) :
    projAt h' wo bo p' q = projAt h wo bo p q := by
  unfold projAt
  simp only [hh]

end Sage

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Layer0Value.lean ====
/-
  The value of the first call's result array: one graph-convolution step.

  The first call runs over 25 points. At point t it reads rows 2000·t … 2000·t + 1999 of the neighbourhood mean and of
  the node features, the two 128 × 128 weight matrices and the two biases whole, and writes rows 2000·t … 2000·t + 1999
  of its result. Three facts give the array after the 25 points.

  * AT ONE ENTRY the body computes, on its blocks, max(((Σ_k a(r,k)·Wl(k,q) + Σ_k x(r,k)·Wr(k,q)) + bl(q)) + br(q), 0):
    on the extended reals the narrowing of the operands is the identity, a product accumulated into zero is the plain
    sum over the shared axis, and a bias viewed as one row and repeated down the rows reads its entry at the column.
    Adding the two products first and the biases afterwards is the step's entry, by commutativity and associativity.
  * A BLOCK OF THE STEP IS THE STEP OF THE BLOCKS: a step's entry in row p depends on row p of the two row operands only,
    and row r of a block at point t is row 2000·t + r of its array; the weights' and biases' one block is the whole
    array. So what point t writes back is block t of the step of the whole arrays.
  * THE BLOCKS FILL THE ARRAY: row p lies in block p / 2000, and 25 · 2000 = 50000; every point writes its block back.
-/
import proofs.«418907_j13572096655879_1_alg».proof.Proof.Gen.KernelIdeal.Frame
import proofs.«418907_j13572096655879_1_alg».proof.Proof.Spec
import proofs.«418907_j13572096655879_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry -/

/-- A bias of 128 numbers, viewed as one row and repeated down the 2000 rows of a block, reads at (r, q) the bias's
    entry q. -/
theorem bias_rows_apply (b : Vec Ideal S128 .f32) (r : Fin 2000) (q : Fin 128) :
    broadcastTo S2000x128 (shapeCast S1x128 b shapeCasts_S128_S1x128) broadcasts_S1x128_S2000x128 (ix2 r q) = b (ix1 q) := by
  refine (broadcastTo_apply _ broadcasts_S1x128_S2000x128 (ix2 r q) (ix2 (⟨0, Nat.one_pos⟩ : Fin 1) q) ?_).trans ?_
  · intro a
    match a with
    | ⟨0, _⟩ => rfl
    | ⟨1, _⟩ => rfl
  · refine (shapeCast_addUnit_apply (n := 1) ![128] b shapeCasts_S128_S1x128 _).trans ?_
    exact congrArg b (funext fun a => by match a with | ⟨0, _⟩ => rfl)

/-- The product of a block of 2000 rows with a 128 × 128 matrix, accumulated into zero, is at (r, q) the sum over k
    of l(r, k) · w(k, q): the contraction's own index runs over the 128 positions of the shared axis. -/
theorem product_apply (l : FVec Ideal S2000x128 .bf16) (w : FVec Ideal S128x128 .bf16) (r : Fin 2000) (q : Fin 128) :
    matmul dot_S2000x128_S128x128_S2000x128_1_0_0_1_n_n none l w (constant (F := Ideal) S2000x128 .f32 0x00000000#32) (ix2 r q)
      = ∑ k : Fin 128, l (ix2 r k) * w (ix2 k q) :=
  (Ideal.matmul_constant_zero_apply dot_S2000x128_S128x128_S2000x128_1_0_0_1_n_n none l w (ix2 r q)).trans
    (PlainDot.sum_eq (M := EReal) dot_S2000x128_S128x128_S2000x128_1_0_0_1_n_n rfl rfl rfl rfl rfl rfl l w r q)

/-- The body's result at row r, column q of its block is one step's entry there: the two products read as plain
    sums, each bias read at its column, the four summands re-associated, and the final maximum taken against zero. -/
theorem step_at (a x : Vec Ideal S2000x128 .f32) (wl wr : Vec Ideal S128x128 .f32) (bl br : Vec Ideal S128 .f32)
    (r : Fin 2000) (q : Fin 128) :
    k0_pay1 a x wl wr bl br (ix2 r q) = Sage.layerAt a x wl wr bl br r q := by
  refine Eq.trans ?_ (Sage.layerAt_products_first a x wl wr bl br r q)
  unfold k0_pay1
  show max (((matmul (F := Ideal) dot_S2000x128_S128x128_S2000x128_1_0_0_1_n_n none _ _ _ (ix2 r q)
      + matmul (F := Ideal) dot_S2000x128_S128x128_S2000x128_1_0_0_1_n_n none _ _ _ (ix2 r q))
      + broadcastTo S2000x128 (shapeCast S1x128 bl shapeCasts_S128_S1x128) broadcasts_S1x128_S2000x128 (ix2 r q))
      + broadcastTo S2000x128 (shapeCast S1x128 br shapeCasts_S128_S1x128) broadcasts_S1x128_S2000x128 (ix2 r q))
      (Ideal.ofBits .f32 0x00000000#32) = _
  rw [product_apply, product_apply, bias_rows_apply, bias_rows_apply, Ideal.ofBits_zero_f32, shapeCast_self]
  rfl

/-! ## One block of rows is one block of the step -/

/-- The body's result at entry (r, q) of its block is the step's entry (p, q) of the whole arrays, as soon as row r of
    each row operand's block is row p of its array: a step's entry depends on that one row only. -/
theorem block_entry (A X : Vec Ideal S50000x128 .f32) (a x : Vec Ideal S2000x128 .f32) (wl wr : Vec Ideal S128x128 .f32)
    (bl br : Vec Ideal S128 .f32) (r : Fin 2000) (q : Fin 128) (p : Fin 50000)
    (ha : ∀ k : Fin 128, a (ix2 r k) = A (ix2 p k)) (hx : ∀ k : Fin 128, x (ix2 r k) = X (ix2 p k)) :
    k0_pay1 a x wl wr bl br (ix2 r q) = Sage.layer A X wl wr bl br (ix2 p q) :=
  (step_at a x wl wr bl br r q).trans
    ((Sage.layerAt_row A X a x wl wr bl br p r q ha hx).trans (Sage.layer_apply A X wl wr bl br p q).symm)

theorem zeros2 : (![0, 0] : Fin 2 → Nat) = fun _ => 0 := funext fun a => by fin_cases a <;> rfl
theorem zeros1 : (![0] : Fin 1 → Nat) = fun _ => 0 := funext fun a => by fin_cases a; rfl

/-- Where the blocks sit along the 25 points (decided over the grid): at point t the two row operands and the result
    are at block (t, 0); the weight matrices and the biases are whole arrays, at block (0, 0) and (0). -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ t.val < 25 :=
  (by decide +kernel : ∀ t : Fin grid0.N, _)

variable (V : (c : Dev nD) → (b : Ref sig .tc) → Buf (Elt Ideal) ((c : Thread nD τ).loc b))

/-- Row r of the neighbourhood mean's block at point t is row 2000·t + r of the array. -/
theorem mean_block_row (c : Dev nD) (t : Fin cfg0.N) (r : Fin 2000) (k : Fin 128) (p : Fin 50000)
    (hp : p.val = 2000 * t.val + r.val) :
    (iblk0 (F := Ideal) V c 0 t : Vec Ideal S2000x128 .f32) (ix2 r k) = (V c main_v16 : Vec Ideal S50000x128 .f32) (ix2 p k) := by
  obtain ⟨e0, e1, -⟩ := block_positions t
  show (V c main_v16 : Vec Ideal S50000x128 .f32) (((cfg0.win 0).blk t).view.emb (ix2 r k)) = _
  refine congrArg (V c main_v16 : Vec Ideal S50000x128 .f32) (funext fun a => Fin.ext ?_)
  match a with
  | ⟨0, _⟩ => show win0_0.index t (0 : Fin 2) * 2000 + 1 * r.val = p.val; omega
  | ⟨1, _⟩ => show win0_0.index t (1 : Fin 2) * 128 + 1 * k.val = k.val; omega

/-- Row r of the node features' block at point t is row 2000·t + r of the array. -/
theorem features_block_row (c : Dev nD) (t : Fin cfg0.N) (r : Fin 2000) (k : Fin 128) (p : Fin 50000)
    (hp : p.val = 2000 * t.val + r.val) :
    (iblk0 (F := Ideal) V c 1 t : Vec Ideal S2000x128 .f32) (ix2 r k) = (V c main_arg0 : Vec Ideal S50000x128 .f32) (ix2 p k) := by
  obtain ⟨-, -, e0, e1, -⟩ := block_positions t
  show (V c main_arg0 : Vec Ideal S50000x128 .f32) (((cfg0.win 1).blk t).view.emb (ix2 r k)) = _
  refine congrArg (V c main_arg0 : Vec Ideal S50000x128 .f32) (funext fun a => Fin.ext ?_)
  match a with
  | ⟨0, _⟩ => show win0_1.index t (0 : Fin 2) * 2000 + 1 * r.val = p.val; omega
  | ⟨1, _⟩ => show win0_1.index t (1 : Fin 2) * 128 + 1 * k.val = k.val; omega

/-- The left weights' one block is the whole matrix. -/
theorem left_weights_block (c : Dev nD) (t : Fin cfg0.N) :
    (iblk0 (F := Ideal) V c 2 t : Vec Ideal S128x128 .f32) = V c main_arg2 := by
  obtain ⟨-, -, -, -, e0, e1, -⟩ := block_positions t
  funext y
  show (V c main_arg2 : Vec Ideal S128x128 .f32) (((cfg0.win 2).blk t).view.emb y) = _
  refine congrArg (V c main_arg2 : Vec Ideal S128x128 .f32) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The left bias's one block is the whole vector. -/
theorem left_bias_block (c : Dev nD) (t : Fin cfg0.N) :
    (iblk0 (F := Ideal) V c 3 t : Vec Ideal S128 .f32) = V c main_arg3 := by
  obtain ⟨-, -, -, -, -, -, e0, -⟩ := block_positions t
  funext y
  show (V c main_arg3 : Vec Ideal S128 .f32) (((cfg0.win 3).blk t).view.emb y) = _
  refine congrArg (V c main_arg3 : Vec Ideal S128 .f32) (funext fun a => Fin.ext ?_)
  match a with
  | ⟨0, _⟩ => show win0_3.index t (0 : Fin 1) * 128 + 1 * (y 0).val = (y 0).val; omega

/-- The right weights' one block is the whole matrix. -/
theorem right_weights_block (c : Dev nD) (t : Fin cfg0.N) :
    (iblk0 (F := Ideal) V c 4 t : Vec Ideal S128x128 .f32) = V c main_arg4 := by
  obtain ⟨-, -, -, -, -, -, -, e0, e1, -⟩ := block_positions t
  funext y
  show (V c main_arg4 : Vec Ideal S128x128 .f32) (((cfg0.win 4).blk t).view.emb y) = _
  refine congrArg (V c main_arg4 : Vec Ideal S128x128 .f32) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The right bias's one block is the whole vector. -/
theorem right_bias_block (c : Dev nD) (t : Fin cfg0.N) :
    (iblk0 (F := Ideal) V c 5 t : Vec Ideal S128 .f32) = V c main_arg5 := by
  obtain ⟨-, -, -, -, -, -, -, -, -, e0, -⟩ := block_positions t
  funext y
  show (V c main_arg5 : Vec Ideal S128 .f32) (((cfg0.win 5).blk t).view.emb y) = _
  refine congrArg (V c main_arg5 : Vec Ideal S128 .f32) (funext fun a => Fin.ext ?_)
  match a with
  | ⟨0, _⟩ => show win0_5.index t (0 : Fin 1) * 128 + 1 * (y 0).val = (y 0).val; omega

/-- What point t writes back is block t of the step of the whole arrays: rows 2000·t … 2000·t + 1999. -/
theorem block_written (c : Dev nD) (t : Fin cfg0.N) :
    (dat0 (F := Ideal) V c).flushed 6 t = ((cfg0.win 6).blk t).view.read (Elt Ideal)
      (Sage.layer (V c main_v16) (V c main_arg0) (V c main_arg2) (V c main_arg4) (V c main_arg3) (V c main_arg5)) := by
  show (cfg0.win 6).cut (grid0.coords t) ((dat0 V c).after 6 t) = _
  rw [after0_6 V c t]
  unfold out0_6
  rw [View.canon_unit_zero zeros2]
  simp only [View.ld_unit_zero (S := S2000x128) zeros2, View.ld_unit_zero (S := S128x128) zeros2,
    View.ld_unit_zero (S := S128) zeros1]
  rw [left_weights_block V c t, left_bias_block V c t, right_weights_block V c t, right_bias_block V c t]
  obtain ⟨-, -, -, -, -, -, -, -, -, -, e0, e1, ht⟩ := block_positions t
  funext j
  have hr : (j 0).val < 2000 := (j 0).isLt
  have hj : (j : S2000x128.Idx) = ix2 (j 0) (j 1) := eq_ix2 j
  have hi : (((cfg0.win 6).blk t).view.emb j : S50000x128.Idx)
      = ix2 (⟨2000 * t.val + (j 0).val, by omega⟩ : Fin 50000) (j 1) := funext fun a => Fin.ext (by
    match a with
    | ⟨0, _⟩ => show win0_6.index t (0 : Fin 2) * 2000 + 1 * (j 0).val = 2000 * t.val + (j 0).val; omega
    | ⟨1, _⟩ => show win0_6.index t (1 : Fin 2) * 128 + 1 * (j 1).val = (j 1).val; omega)
  show k0_pay1 (iblk0 V c 0 t) (iblk0 V c 1 t) (V c main_arg2) (V c main_arg4) (V c main_arg3) (V c main_arg5) j
    = Sage.layer (V c main_v16) (V c main_arg0) (V c main_arg2) (V c main_arg4) (V c main_arg3) (V c main_arg5)
        (((cfg0.win 6).blk t).view.emb j)
  refine (congrArg (k0_pay1 (iblk0 V c 0 t) (iblk0 V c 1 t) (V c main_arg2) (V c main_arg4) (V c main_arg3) (V c main_arg5)) hj).trans ?_
  refine Eq.trans ?_ (congrArg (Sage.layer (V c main_v16) (V c main_arg0) (V c main_arg2) (V c main_arg4) (V c main_arg3) (V c main_arg5)) hi.symm)
  exact block_entry (V c main_v16) (V c main_arg0) (iblk0 V c 0 t) (iblk0 V c 1 t) (V c main_arg2) (V c main_arg4)
    (V c main_arg3) (V c main_arg5) (j 0) (j 1) _
    (fun k => mean_block_row V c t (j 0) k _ rfl) (fun k => features_block_row V c t (j 0) k _ rfl)

/-! ## The 25 blocks fill the array -/

/-- An index of the result array is in point t's block iff, on each axis, its coordinate is in the block's range. -/
theorem mem_block (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v17).slice (win0_6.rect t)).set ↔ _
  rw [View.set_slice_whole, Rect.mem_set_unit]
  exact Iff.rfl

/-- Every index of the result array is in some point's block: row p lies in block p / 2000, and 25 blocks of 2000
    rows are the 50000 rows. Every point writes its block back. -/
theorem blocks_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := by decide
  have hlt : (i 0).val / 2000 < cfg0.N := by rw [hN]; omega
  obtain ⟨-, -, -, -, -, -, -, -, -, -, e0, e1, -⟩ := block_positions ⟨(i 0).val / 2000, hlt⟩
  have e0' : win0_6.index ⟨(i 0).val / 2000, hlt⟩ (0 : Fin 2) = (i 0).val / 2000 := e0
  refine ⟨⟨(i 0).val / 2000, hlt⟩, flush0_6 _, ?_⟩
  rw [mem_block]
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    omega
  | ⟨1, _⟩ =>
    show win0_6.index ⟨(i 0).val / 2000, hlt⟩ (1 : Fin 2) * 128 ≤ (i 1).val
      ∧ (i 1).val < win0_6.index ⟨(i 0).val / 2000, hlt⟩ (1 : Fin 2) * 128 + 128
    omega

/-! ## The array after the 25 points -/

/-- After its 25 points the first call's result array is one step of the arrays it was entered with: each point
    writes its block of the step, and the blocks fill the array. -/
theorem final0 (c : Dev nD) :
    (dat0 (F := Ideal) V c).arrAt 6 cfg0.N
      = Sage.layer (V c main_v16) (V c main_arg0) (V c main_arg2) (V c main_arg4) (V c main_arg3) (V c main_arg5) :=
  (dat0 (F := Ideal) V c).arrAt_eq_of_cover 6
    (Sage.layer (V c main_v16) (V c main_arg0) (V c main_arg2) (V c main_arg4) (V c main_arg3) (V c main_arg5))
    (fun t _ => block_written V c t) blocks_cover

end Cert.KernelIdeal.Dense

end
-- ==== Proof.Layer1Value.lean ====
/-
  The second graph-convolution step and its read-out, as the value of the result array.

  The region runs over 25 grid points.  At point t it is handed rows 2000 t … 2000 t + 1999 of the neighbourhood mean
  and of the node features (each 50000 rows of 128 numbers), the two 128 × 128 weight matrices, their two bias vectors,
  the 128 × 40 read-out matrix and its bias whole, and writes back rows 2000 t … 2000 t + 1999 of the 50000 × 40 result.

  Three steps.  (1) What the body stores, read at entry (r, q) of its block, is

      Σ_k max (((Σ_j a(r,j)·Wl(j,k) + bl(k)) + Σ_j x(r,j)·Wr(j,k)) + br(k), 0) · Wo(k,q) + bo(q)

  over the blocks a, x it loaded: on the extended reals the narrowing of an operand is the identity, a product into a zero
  accumulator is the plain sum over the contracted axis, a bias is read at its column whatever the row, and the sum of the
  two products and the two biases does not depend on the order in which they are added.  (2) Both the step and the read-out
  are row-wise, and row r of the block at point t is row 2000 t + r of the array, so what point t writes back is block t
  of the read-out of the step over the whole arrays.  (3) Row p of the result lies in the block of point p / 2000, so the
  25 blocks cover the result array, which therefore ends holding that read-out.
-/
import proofs.«418907_j13572096655879_1_alg».proof.Proof.Gen.KernelIdeal.Frame
import proofs.«418907_j13572096655879_1_alg».proof.Proof.Spec
import proofs.«418907_j13572096655879_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Dense
open Cert.KernelIdeal Cert.KernelIdeal.Gen Idealize.ShloMosaic Idealize.ShloMosaic.TcCoe Idealize.SL.Sem
open Idealize.ShloMosaic.ValueIdx
open Idealize.ShloMosaic.Pipeline (Dat)

/-- A bias vector laid out as one row and repeated down the rows: entry (p, q) of the result is entry q of the vector. -/
private theorem secondStep_bias_rows_apply {α : Type} {R n : Nat} (b : (⟨1, ![n]⟩ : Shape).Idx → α)
    (h1 : (⟨1, ![n]⟩ : Shape).ShapeCasts ⟨2, ![1, n]⟩) (h2 : (⟨2, ![1, n]⟩ : Shape).Broadcasts ⟨2, ![R, n]⟩)
    (p : Fin R) (q : Fin n) :
    broadcastTo ⟨2, ![R, n]⟩ (shapeCast ⟨2, ![1, n]⟩ b h1) h2 (ix2 p q) = b (ix1 q) :=
  (broadcastTo_1b_ab_apply _ h2 p q).trans (shapeCast_a_1a_apply b h1 0 q)

/-- The second step's hidden block, as the body computes it from the blocks it loaded. -/
private def secondStepBlock (x0 x1 : Vec Ideal S2000x128 .f32) (x2 x4 : Vec Ideal S128x128 .f32) (x3 x5 : Vec Ideal S128 .f32) :
    FVec Ideal S2000x128 .f32 :=
  maximumf
    (addf
      (addf
        (addf
          (matmul dot_S2000x128_S128x128_S2000x128_1_0_0_1_n_n none
            (truncf .bf16 (shapeCast S2000x128 x0 shapeCasts_S2000x128_S2000x128) bitsLt_bf16_f32) (truncf .bf16 x2 bitsLt_bf16_f32)
            (constant S2000x128 .f32 0x00000000#32))
          (matmul dot_S2000x128_S128x128_S2000x128_1_0_0_1_n_n none
            (truncf .bf16 (shapeCast S2000x128 x1 shapeCasts_S2000x128_S2000x128) bitsLt_bf16_f32) (truncf .bf16 x4 bitsLt_bf16_f32)
            (constant S2000x128 .f32 0x00000000#32)))
        (broadcastTo S2000x128 (shapeCast S1x128 x3 shapeCasts_S128_S1x128) broadcasts_S1x128_S2000x128))
      (broadcastTo S2000x128 (shapeCast S1x128 x5 shapeCasts_S128_S1x128) broadcasts_S1x128_S2000x128))
    (broadcast S2000x128 (Scalar.ofBits .f32 0x00000000#32))

/-- The body's payload is the read-out of that hidden block. -/
private theorem readout_payload_eq (x0 x1 : Vec Ideal S2000x128 .f32) (x2 x4 : Vec Ideal S128x128 .f32) (x3 x5 : Vec Ideal S128 .f32)
    (x6 : Vec Ideal S128x40 .f32) (x7 : Vec Ideal S40 .f32) :
    k1_pay1 x0 x1 x2 x4 x3 x5 x6 x7
      = addf
          (matmul dot_S2000x128_S128x40_S2000x40_1_0_0_1_n_n none
            (truncf .bf16 (secondStepBlock x0 x1 x2 x4 x3 x5) bitsLt_bf16_f32) (truncf .bf16 x6 bitsLt_bf16_f32)
            (constant S2000x40 .f32 0x00000000#32))
          (broadcastTo S2000x40 (shapeCast S1x40 x7 shapeCasts_S40_S1x40) broadcasts_S1x40_S2000x40) := rfl

/-- A product of a 2000-row block with a weight matrix into a zero accumulator, read at (r, q): the plain sum. -/
private theorem secondStep_product_apply (l : FVec Ideal S2000x128 .bf16) (w : FVec Ideal S128x128 .bf16) (r : Fin 2000) (q : Fin 128) :
    matmul dot_S2000x128_S128x128_S2000x128_1_0_0_1_n_n none l w (constant S2000x128 .f32 0x00000000#32) (ix2 r q)
      = ∑ k : Fin 128, l (ix2 r k) * w (ix2 k q) :=
  (Ideal.matmul_constant_zero_apply dot_S2000x128_S128x128_S2000x128_1_0_0_1_n_n none l w (ix2 r q)).trans
    (PlainDot.sum_eq dot_S2000x128_S128x128_S2000x128_1_0_0_1_n_n rfl rfl rfl rfl rfl rfl l w r q)

private theorem readout_product_apply (l : FVec Ideal S2000x128 .bf16) (w : FVec Ideal S128x40 .bf16) (r : Fin 2000) (q : Fin 40) :
    matmul dot_S2000x128_S128x40_S2000x40_1_0_0_1_n_n none l w (constant S2000x40 .f32 0x00000000#32) (ix2 r q)
      = ∑ k : Fin 128, l (ix2 r k) * w (ix2 k q) :=
  (Ideal.matmul_constant_zero_apply dot_S2000x128_S128x40_S2000x40_1_0_0_1_n_n none l w (ix2 r q)).trans
    (PlainDot.sum_eq dot_S2000x128_S128x40_S2000x40_1_0_0_1_n_n rfl rfl rfl rfl rfl rfl l w r q)

/-- The hidden block at (r, k) is the step's entry at the block's own height. -/
private theorem secondStepBlock_apply (x0 x1 : Vec Ideal S2000x128 .f32) (x2 x4 : Vec Ideal S128x128 .f32) (x3 x5 : Vec Ideal S128 .f32)
    (r : Fin 2000) (k : Fin 128) :
    secondStepBlock x0 x1 x2 x4 x3 x5 (ix2 r k) = Sage.layerAt x0 x1 x2 x4 x3 x5 r k := by
  refine Eq.trans ?_ (Sage.layerAt_products_first x0 x1 x2 x4 x3 x5 r k)
  unfold secondStepBlock
  rw [maximumf_apply, addf_apply, addf_apply, addf_apply, secondStep_product_apply, secondStep_product_apply,
    secondStep_bias_rows_apply, secondStep_bias_rows_apply, broadcast_apply]
  simp only [shapeCast_self, truncf_apply]
  exact congrArg (max _) Ideal.ofBits_zero_f32

/-- The payload at (r, q): the read-out of the step over the block. -/
private theorem readout_payload_apply (x0 x1 : Vec Ideal S2000x128 .f32) (x2 x4 : Vec Ideal S128x128 .f32) (x3 x5 : Vec Ideal S128 .f32)
    (x6 : Vec Ideal S128x40 .f32) (x7 : Vec Ideal S40 .f32) (r : Fin 2000) (q : Fin 40) :
    k1_pay1 x0 x1 x2 x4 x3 x5 x6 x7 (ix2 r q) = Sage.projAt (Sage.layer x0 x1 x2 x4 x3 x5) x6 x7 r q := by
  rw [readout_payload_eq, addf_apply, readout_product_apply, secondStep_bias_rows_apply]
  unfold Sage.projAt
  refine congrArg (· + x7 (ix1 q)) (Finset.sum_congr rfl fun k _ => ?_)
  rw [truncf_apply, truncf_apply, secondStepBlock_apply, Sage.layer_apply]

/-! ## From the blocks to the arrays -/

variable (V : (c : Dev nD) → (b : Ref sig .tc) → Buf (Elt Ideal) ((c : Thread nD τ).loc b))

private theorem readout_zeros2 : (![0, 0] : Fin 2 → Nat) = fun _ => 0 := funext fun a => by fin_cases a <;> rfl
private theorem readout_zeros1 : (![0] : Fin 1 → Nat) = fun _ => 0 := funext fun a => by fin_cases a; rfl

/-- Where each window's block sits at grid point t: the two row operands and the result move down one block of rows per
    point; the weights and biases are whole arrays. -/
private theorem secondStep_block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- Row r of the neighbourhood-mean block at point t is row 2000 t + r of the array. -/
private theorem secondStep_mean_block_row (c : Dev nD) (t : Fin cfg1.N) (r : Fin 2000) (p : Fin 50000) (hp : p.val = 2000 * t.val + r.val)
    (k : Fin 128) :
    (iblk1 V c 0 t : Vec Ideal S2000x128 .f32) (ix2 r k) = (V c main_v30 : Vec Ideal S50000x128 .f32) (ix2 p k) := by
  obtain ⟨e0, e1, -⟩ := secondStep_block_positions t
  show (V c main_v30 : Vec Ideal S50000x128 .f32) (((cfg1.win 0).blk t).view.emb (ix2 r k)) = _
  congr 1
  funext a
  apply Fin.ext
  match a with
  | ⟨0, _⟩ => show win1_0.index t (0 : Fin 2) * 2000 + 1 * r.val = p.val; omega
  | ⟨1, _⟩ => show win1_0.index t (1 : Fin 2) * 128 + 1 * k.val = k.val; omega

/-- Likewise for the node-feature block. -/
private theorem secondStep_feature_block_row (c : Dev nD) (t : Fin cfg1.N) (r : Fin 2000) (p : Fin 50000) (hp : p.val = 2000 * t.val + r.val)
    (k : Fin 128) :
    (iblk1 V c 1 t : Vec Ideal S2000x128 .f32) (ix2 r k) = (V c main_v17 : Vec Ideal S50000x128 .f32) (ix2 p k) := by
  obtain ⟨-, -, e0, e1, -⟩ := secondStep_block_positions t
  show (V c main_v17 : Vec Ideal S50000x128 .f32) (((cfg1.win 1).blk t).view.emb (ix2 r k)) = _
  congr 1
  funext a
  apply Fin.ext
  match a with
  | ⟨0, _⟩ => show win1_1.index t (0 : Fin 2) * 2000 + 1 * r.val = p.val; omega
  | ⟨1, _⟩ => show win1_1.index t (1 : Fin 2) * 128 + 1 * k.val = k.val; omega

/-- The weights and biases are staged whole: their block at any point is the array. -/
private theorem secondStep_left_weights_block (c : Dev nD) (t : Fin cfg1.N) :
    (iblk1 V c 2 t : Vec Ideal S128x128 .f32) = (V c main_arg6 : Vec Ideal S128x128 .f32) := by
  obtain ⟨-, -, -, -, e0, e1, -⟩ := secondStep_block_positions t
  funext x
  show (V c main_arg6 : Vec Ideal S128x128 .f32) (((cfg1.win 2).blk t).view.emb x) = _
  congr 1
  funext a
  apply Fin.ext
  match a with
  | ⟨0, _⟩ => show win1_2.index t (0 : Fin 2) * 128 + 1 * (x 0).val = (x 0).val; omega
  | ⟨1, _⟩ => show win1_2.index t (1 : Fin 2) * 128 + 1 * (x 1).val = (x 1).val; omega

private theorem secondStep_left_bias_block (c : Dev nD) (t : Fin cfg1.N) :
    (iblk1 V c 3 t : Vec Ideal S128 .f32) = (V c main_arg7 : Vec Ideal S128 .f32) := by
  obtain ⟨-, -, -, -, -, -, e0, -⟩ := secondStep_block_positions t
  funext x
  show (V c main_arg7 : Vec Ideal S128 .f32) (((cfg1.win 3).blk t).view.emb x) = _
  congr 1
  funext a
  apply Fin.ext
  match a with
  | ⟨0, _⟩ => show win1_3.index t (0 : Fin 1) * 128 + 1 * (x 0).val = (x 0).val; omega

private theorem secondStep_right_weights_block (c : Dev nD) (t : Fin cfg1.N) :
    (iblk1 V c 4 t : Vec Ideal S128x128 .f32) = (V c main_arg8 : Vec Ideal S128x128 .f32) := by
  obtain ⟨-, -, -, -, -, -, -, e0, e1, -⟩ := secondStep_block_positions t
  funext x
  show (V c main_arg8 : Vec Ideal S128x128 .f32) (((cfg1.win 4).blk t).view.emb x) = _
  congr 1
  funext a
  apply Fin.ext
  match a with
  | ⟨0, _⟩ => show win1_4.index t (0 : Fin 2) * 128 + 1 * (x 0).val = (x 0).val; omega
  | ⟨1, _⟩ => show win1_4.index t (1 : Fin 2) * 128 + 1 * (x 1).val = (x 1).val; omega

private theorem secondStep_right_bias_block (c : Dev nD) (t : Fin cfg1.N) :
    (iblk1 V c 5 t : Vec Ideal S128 .f32) = (V c main_arg9 : Vec Ideal S128 .f32) := by
  obtain ⟨-, -, -, -, -, -, -, -, -, e0, -⟩ := secondStep_block_positions t
  funext x
  show (V c main_arg9 : Vec Ideal S128 .f32) (((cfg1.win 5).blk t).view.emb x) = _
  congr 1
  funext a
  apply Fin.ext
  match a with
  | ⟨0, _⟩ => show win1_5.index t (0 : Fin 1) * 128 + 1 * (x 0).val = (x 0).val; omega

private theorem readout_weights_block (c : Dev nD) (t : Fin cfg1.N) :
    (iblk1 V c 6 t : Vec Ideal S128x40 .f32) = (V c main_arg10 : Vec Ideal S128x40 .f32) := by
  obtain ⟨-, -, -, -, -, -, -, -, -, -, e0, e1, -⟩ := secondStep_block_positions t
  funext x
  show (V c main_arg10 : Vec Ideal S128x40 .f32) (((cfg1.win 6).blk t).view.emb x) = _
  congr 1
  funext a
  apply Fin.ext
  match a with
  | ⟨0, _⟩ => show win1_6.index t (0 : Fin 2) * 128 + 1 * (x 0).val = (x 0).val; omega
  | ⟨1, _⟩ => show win1_6.index t (1 : Fin 2) * 40 + 1 * (x 1).val = (x 1).val; omega

private theorem readout_bias_block (c : Dev nD) (t : Fin cfg1.N) :
    (iblk1 V c 7 t : Vec Ideal S40 .f32) = (V c main_arg11 : Vec Ideal S40 .f32) := by
  obtain ⟨-, -, -, -, -, -, -, -, -, -, -, -, e0, -⟩ := secondStep_block_positions t
  funext x
  show (V c main_arg11 : Vec Ideal S40 .f32) (((cfg1.win 7).blk t).view.emb x) = _
  congr 1
  funext a
  apply Fin.ext
  match a with
  | ⟨0, _⟩ => show win1_7.index t (0 : Fin 1) * 40 + 1 * (x 0).val = (x 0).val; omega

/-- The read-out of the step is row-wise: computed over a block of rows that agree with rows of the arrays, with the same
    weights and biases, it is the corresponding entry of the read-out of the step over the arrays. -/
private theorem readout_rows (A X : Vec Ideal S50000x128 .f32) (a x : Vec Ideal S2000x128 .f32)
    (wl wr wl' wr' : Vec Ideal S128x128 .f32) (bl br bl' br' : Vec Ideal S128 .f32)
    (wo wo' : Vec Ideal S128x40 .f32) (bo bo' : Vec Ideal S40 .f32) (r : Fin 2000) (p : Fin 50000) (q : Fin 40)
    (ha : ∀ k : Fin 128, a (ix2 r k) = A (ix2 p k)) (hx : ∀ k : Fin 128, x (ix2 r k) = X (ix2 p k))
    (hwl : wl' = wl) (hwr : wr' = wr) (hbl : bl' = bl) (hbr : br' = br) (hwo : wo' = wo) (hbo : bo' = bo) :
    Sage.projAt (Sage.layer a x wl' wr' bl' br') wo' bo' r q = Sage.projAt (Sage.layer A X wl wr bl br) wo bo p q := by
  subst hwl hwr hbl hbr hwo hbo
  exact Sage.projAt_row (Sage.layer A X wl' wr' bl' br') (Sage.layer a x wl' wr' bl' br') wo' bo' p r q fun k =>
    (Sage.layer_apply a x wl' wr' bl' br' r k).trans
      ((Sage.layerAt_row A X a x wl' wr' bl' br' p r k ha hx).trans (Sage.layer_apply A X wl' wr' bl' br' p k).symm)

/-- What point t writes back is block t of the read-out of the step over the arrays. -/
private theorem readout_written_block (c : Dev nD) (t : Fin cfg1.N) :
    (dat1 (F := Ideal) V c).flushed 8 t = ((cfg1.win 8).blk t).view.read (Elt Ideal)
      (Sage.proj (Sage.layer (V c main_v30) (V c main_v17) (V c main_arg6) (V c main_arg8) (V c main_arg7) (V c main_arg9))
        (V c main_arg10) (V c main_arg11)) := by
  show (cfg1.win 8).cut (grid1.coords t) ((dat1 (F := Ideal) V c).after 8 t) = _
  rw [after1_8]
  unfold out1_8
  rw [View.canon_unit_zero readout_zeros2]
  simp only [View.ld_unit_zero (S := S2000x128) readout_zeros2, View.ld_unit_zero (S := S128x128) readout_zeros2,
    View.ld_unit_zero (S := S128) readout_zeros1, View.ld_unit_zero (S := S128x40) readout_zeros2, View.ld_unit_zero (S := S40) readout_zeros1]
  obtain ⟨-, -, -, -, -, -, -, -, -, -, -, -, -, e0, e1⟩ := secondStep_block_positions t
  funext j
  have hr : (j 0).val < 2000 := (j 0).isLt
  have hq : (j 1).val < 40 := (j 1).isLt
  have ht : t.val < 25 := lt_of_lt_of_eq t.isLt N_1
  have hj : (cfg1.win 8).xinj (grid1.coords t) j = ix2 (⟨(j 0).val, hr⟩ : Fin 2000) (⟨(j 1).val, hq⟩ : Fin 40) :=
    funext fun a => match a with | ⟨0, _⟩ => rfl | ⟨1, _⟩ => rfl
  have hi : ((cfg1.win 8).blk t).view.emb j
      = ix2 (⟨2000 * t.val + (j 0).val, by omega⟩ : Fin 50000) (⟨(j 1).val, hq⟩ : Fin 40) := by
    funext a
    apply Fin.ext
    match a with
    | ⟨0, _⟩ => show win1_8.index t (0 : Fin 2) * 2000 + 1 * (j 0).val = 2000 * t.val + (j 0).val; omega
    | ⟨1, _⟩ => show win1_8.index t (1 : Fin 2) * 40 + 1 * (j 1).val = (j 1).val; omega
  refine (congrArg (k1_pay1 (iblk1 V c 0 t) (iblk1 V c 1 t) (iblk1 V c 2 t) (iblk1 V c 4 t) (iblk1 V c 3 t) (iblk1 V c 5 t)
    (iblk1 V c 6 t) (iblk1 V c 7 t)) hj).trans ?_
  refine (readout_payload_apply _ _ _ _ _ _ _ _ _ _).trans ?_
  refine Eq.trans ?_ (congrArg (Sage.proj (Sage.layer (V c main_v30) (V c main_v17) (V c main_arg6) (V c main_arg8)
    (V c main_arg7) (V c main_arg9)) (V c main_arg10) (V c main_arg11)) hi).symm
  exact readout_rows (V c main_v30) (V c main_v17) _ _ _ _ _ _ _ _ _ _ _ _ _ _ _ _ _
    (secondStep_mean_block_row V c t _ _ rfl) (secondStep_feature_block_row V c t _ _ rfl)
    (secondStep_left_weights_block V c t) (secondStep_right_weights_block V c t) (secondStep_left_bias_block V c t) (secondStep_right_bias_block V c t)
    (readout_weights_block V c t) (readout_bias_block V c t)

/-- An index of the result array lies in point t's block iff, on each axis, it lies in the block's range. -/
private theorem readout_mem_block (t : Fin cfg1.N) (i : S50000x40.Idx) :
    i ∈ ((cfg1.win 8).blk t).view.set ↔ ∀ a : Fin 2, win1_8.index t a * S2000x40.size a ≤ (i a).val ∧ (i a).val < win1_8.index t a * S2000x40.size a + S2000x40.size a := by
  show i ∈ ((View.whole main_v31).slice (win1_8.rect t)).set ↔ _
  rw [View.set_slice_whole, Rect.mem_set_unit]
  exact Iff.rfl

/-- Every row of the result lies in some point's block: row p in that of point p / 2000. -/
private theorem readout_rows_covered (i : S50000x40.Idx) :
    ∃ t : Fin cfg1.N, (cfg1.win 8).flush t = true ∧ i ∈ ((cfg1.win 8).blk t).view.set := by
  have hi0 : (i 0).val < 50000 := (i 0).isLt
  have hi1 : (i 1).val < 40 := (i 1).isLt
  refine ⟨⟨(i 0).val / 2000, lt_of_lt_of_eq (by omega : (i 0).val / 2000 < 25) N_1.symm⟩, flush1_8 _, ?_⟩
  obtain ⟨-, -, -, -, -, -, -, -, -, -, -, -, -, e0, e1⟩ := secondStep_block_positions ⟨(i 0).val / 2000, lt_of_lt_of_eq (by omega : (i 0).val / 2000 < 25) N_1.symm⟩
  rw [readout_mem_block]
  intro a
  match a with
  | ⟨0, _⟩ =>
    show win1_8.index _ (0 : Fin 2) * 2000 ≤ (i 0).val ∧ (i 0).val < win1_8.index _ (0 : Fin 2) * 2000 + 2000
    rw [e0]
    show (i 0).val / 2000 * 2000 ≤ (i 0).val ∧ (i 0).val < (i 0).val / 2000 * 2000 + 2000
    omega
  | ⟨1, _⟩ =>
    show win1_8.index _ (1 : Fin 2) * 40 ≤ (i 1).val ∧ (i 1).val < win1_8.index _ (1 : Fin 2) * 40 + 40
    rw [e1]
    omega

/-- After the region's 25 points the result array is the read-out of one step over the arrays the region found. -/
theorem final1 (c : Dev nD) :
    (dat1 (F := Ideal) V c).arrAt 8 cfg1.N
      = Sage.proj (Sage.layer (V c main_v30) (V c main_v17) (V c main_arg6) (V c main_arg8) (V c main_arg7) (V c main_arg9))
          (V c main_arg10) (V c main_arg11) :=
  (dat1 (F := Ideal) V c).arrAt_eq_of_cover 8 _ (fun t _ => readout_written_block V c t) readout_rows_covered

end Cert.KernelIdeal.Dense

end
-- ==== Proof.KernelValue.lean ====
/-
  The kernel's result, as one function of the launch arrays.

  The program's two calls are each one graph-convolution step over 25 blocks of rows; the second also applies the
  read-out.  Before each call the host lines form the neighbourhood mean of the current features.  Put together, with
  every source index admitted: the first call leaves `h1` = one step of (the mean of the input features, the input
  features); the second call leaves the read-out of one step of (the mean of `h1`, `h1`).
-/
import proofs.«418907_j13572096655879_1_alg».proof.Proof.RunValue
import proofs.«418907_j13572096655879_1_alg».proof.Proof.HostSide
import proofs.«418907_j13572096655879_1_alg».proof.Proof.Layer0Value
import proofs.«418907_j13572096655879_1_alg».proof.Proof.Layer1Value

noncomputable section

namespace Cert.KernelIdeal.Result

open Cert.KernelIdeal Cert.KernelIdeal.Gen Idealize.ShloMosaic Idealize.ShloMosaic.TcCoe Idealize.SL.Sem
open Cert.ReferenceIdeal.Dense (agg)

variable (m : (ℓ : Loc nD τ sig) → Buf (Elt Ideal) ℓ) (ρ : Dev nD → PrngReg)

/-- The features after the first step: one step of the mean of the input features and the input features. -/
def hidden (c : Dev nD) : FVec Ideal S50000x128 .f32 :=
  Sage.layer (agg (m ((c : Thread nD τ).loc main_arg1)) (m ((c : Thread nD τ).loc main_arg0))) (m ((c : Thread nD τ).loc main_arg0))
    (m ((c : Thread nD τ).loc main_arg2)) (m ((c : Thread nD τ).loc main_arg4)) (m ((c : Thread nD τ).loc main_arg3)) (m ((c : Thread nD τ).loc main_arg5))

/-- The result: the read-out of one step of the mean of the first step's features and those features. -/
def out (c : Dev nD) : FVec Ideal S50000x40 .f32 :=
  Sage.proj (Sage.layer (agg (m ((c : Thread nD τ).loc main_arg1)) (hidden m c)) (hidden m c)
      (m ((c : Thread nD τ).loc main_arg6)) (m ((c : Thread nD τ).loc main_arg8)) (m ((c : Thread nD τ).loc main_arg7)) (m ((c : Thread nD τ).loc main_arg9)))
    (m ((c : Thread nD τ).loc main_arg10)) (m ((c : Thread nD τ).loc main_arg11))

/-- What the first call leaves in its output array. -/
theorem first_output (c : Dev nD) (hs : ∀ e : S1600000.Idx, IntOp.cmpi .sge (HostSide.srcRow (m ((c : Thread nD τ).loc main_arg1)) e) 4294917296#32 = 1#1
      ∧ IntOp.cmpi .slt (HostSide.srcRow (m ((c : Thread nD τ).loc main_arg1)) e) 50000#32 = 1#1) :
    V4 m ρ c main_v17 = hidden m c := by
  have h0 : V4 m ρ c main_v17 = (dat0 (V3 m ρ) c).arrAt 6 cfg0.N := W4_arr m ρ c 6
  rw [h0, Dense.final0 (V3 m ρ) c, HostSide.entry0_mean, HostSide.entry0_arg0, HostSide.entry0_arg2, HostSide.entry0_arg3,
    HostSide.entry0_arg4, HostSide.entry0_arg5, HostSide.meanRows_eq_agg _ _ hs]
  rfl

/-- What the second call leaves in the result array. -/
theorem result_array (c : Dev nD) (hs : ∀ e : S1600000.Idx, IntOp.cmpi .sge (HostSide.srcRow (m ((c : Thread nD τ).loc main_arg1)) e) 4294917296#32 = 1#1
      ∧ IntOp.cmpi .slt (HostSide.srcRow (m ((c : Thread nD τ).loc main_arg1)) e) 50000#32 = 1#1) :
    W7 m ρ c (Proc.devRef .tc main_v31) = out m c := by
  have h0 : W7 m ρ c (Proc.devRef .tc main_v31) = (dat1 (V6 m ρ) c).arrAt 8 cfg1.N := W7_arr m ρ c 8
  rw [h0, Dense.final1 (V6 m ρ) c, HostSide.entry1_mean, HostSide.entry1_feat, HostSide.entry1_arg6, HostSide.entry1_arg7,
    HostSide.entry1_arg8, HostSide.entry1_arg9, HostSide.entry1_arg10, HostSide.entry1_arg11, first_output m ρ c hs,
    HostSide.meanRows_eq_agg _ _ hs]
  rfl

/-- The run: every weakly fair execution terminates with the result array at `out` and the arguments as launched. -/
theorem run (hs : ∀ (c : Dev nD) (e : S1600000.Idx),
      IntOp.cmpi .sge (HostSide.srcRow (m ((c : Thread nD τ).loc main_arg1)) e) 4294917296#32 = 1#1
        ∧ IntOp.cmpi .slt (HostSide.srcRow (m ((c : Thread nD τ).loc main_arg1)) e) 50000#32 = 1#1) :
    θ_run defs (onTc (τ := τ) (main (F := Ideal))) ⟨m, fun _ => 0, ρ⟩ (fun r => ∀ c : Dev nD,
      r.2.mem ((c.tc : Thread nD τ).loc main_v31) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (result_array m ρ c (hs c)), (h c).2⟩)
    (Cert.KernelIdeal.Launched.run_result (F := Ideal) m ρ)

end Cert.KernelIdeal.Result

end
-- ==== Proof.RefDense.lean ====
/-
  The reference program's result is the specification.

  The reference applies two graph-convolution steps and a read-out.  Each step takes the neighbourhood mean of the
  current features (a row gather along the edges, a scatter-add of the gathered rows and of the count, and a division),
  multiplies the mean and the features by two weight matrices, adds the two biases and takes the positive part.  The
  mean is carried as one opaque function of the edge list and the features; everything after it is read entry by
  entry: a matrix product is a sum over the contracted axis, a bias is a row broadcast down the rows, the positive
  part is a maximum with zero.
-/
import proofs.«418907_j13572096655879_1_alg».proof.Proof.Gen.ReferenceIdeal.Read
import proofs.«418907_j13572096655879_1_alg».proof.Proof.Spec
import proofs.«418907_j13572096655879_1_alg».proof.Proof.MeanAgg

noncomputable section

open scoped BigOperators

namespace Cert.ReferenceIdeal.Dense
open Cert.ReferenceIdeal Cert.ReferenceIdeal.Gen Cert.ReferenceIdeal.Read Idealize.ShloMosaic

/-- The first mean: the gather of the input rows along the edges, scatter-added and divided by the count, is the
    neighbourhood mean of the input features.  Both sides are the same operations applied to the same operands. -/
theorem ref_mean_first (x0 : FVec Ideal S50000x128 .f32) (x1 : IVec S2x1600000 32) :
    val_main_v22 (F := Ideal) x0 x1 = agg x1 x0 := by
  unfold val_main_v22 val_main_v21 val_main_v20 val_main_v19 val_main_v18 val_main_v17 val_main_v16 val_main_v15
    val_main_v14 val_main_v13 val_main_v12 val_main_v11 val_main_v10 val_main_v9 val_main_v8 val_main_v7 val_main_v6
    val_main_v5 val_main_v4 val_main_v3 val_main_v2 val_main_v1 val_main_v0
    val_main_c val_main_c_0 val_main_cst val_main_cst_1 val_main_cst_2 val_main_cst_3
    agg meanOver srcCol wrapped srcRow dstRow
  rfl

/-- The second mean: the same stretch of operations applied to the first step's result. -/
theorem ref_mean_second (x0 : FVec Ideal S50000x128 .f32) (x1 : IVec S2x1600000 32) (x2 : FVec Ideal S128x128 .f32)
    (x3 : FVec Ideal S128 .f32) (x4 : FVec Ideal S128x128 .f32) (x5 : FVec Ideal S128 .f32) :
    val_main_v51 (F := Ideal) x0 x1 x2 x3 x4 x5
      = agg (F := Ideal) x1 (val_main_v32 (F := Ideal) x0 x1 x2 x3 x4 x5) := by
  unfold val_main_v51 val_main_v50 val_main_v49 val_main_v48 val_main_v47 val_main_v46 val_main_v45 val_main_v44
    val_main_v43 val_main_v42 val_main_v41 val_main_v40 val_main_v39 val_main_v38 val_main_v37 val_main_v36 val_main_v35
    val_main_v34 val_main_v33 val_main_v3 val_main_v2 val_main_v1 val_main_v0
    val_main_c_4 val_main_c_5 val_main_cst_6 val_main_cst_7 val_main_cst_8 val_main_cst_9
    agg meanOver srcCol wrapped srcRow dstRow
  generalize val_main_v32 (F := Ideal) x0 x1 x2 x3 x4 x5 = h
  rfl

/-- The first step, entry by entry: the reference adds the left product, the left bias, the right product and the
    right bias in this order and takes the maximum with zero. -/
theorem ref_step_first (x0 : FVec Ideal S50000x128 .f32) (x1 : IVec S2x1600000 32) (x2 : FVec Ideal S128x128 .f32)
    (x3 : FVec Ideal S128 .f32) (x4 : FVec Ideal S128x128 .f32) (x5 : FVec Ideal S128 .f32) :
    val_main_v32 (F := Ideal) x0 x1 x2 x3 x4 x5
      = Sage.layer (val_main_v22 (F := Ideal) x0 x1) x0 x2 x4 x3 x5 := by
  funext i
  obtain ⟨p, q, rfl⟩ : ∃ (p : Fin 50000) (q : Fin 128), i = ValueIdx.ix2 p q := ⟨i 0, i 1, ValueIdx.eq_ix2 i⟩
  rw [val_main_v32_apply, val_main_v31_apply, val_main_v30_apply, val_main_v29_apply, val_main_v28_apply,
    val_main_v27_apply, val_main_v26_apply, val_main_v25_apply, val_main_v24_apply, val_main_v23_apply,
    val_main_call0_v0_apply, val_main_call0_cst_apply]
  generalize val_main_v22 (F := Ideal) x0 x1 = a
  -- the entries a product reads along the contracted axis, and the bias entry, at (p, q)
  have el : ∀ k : Fin 128, lidx_main_v23 (ValueIdx.ix2 p q) k = ValueIdx.ix2 p k := fun k =>
    funext fun d => Fin.ext (by match d with | ⟨0, _⟩ => rfl | ⟨1, _⟩ => rfl)
  have er : ∀ k : Fin 128, ridx_main_v23 (ValueIdx.ix2 p q) k = ValueIdx.ix2 k q := fun k =>
    funext fun d => Fin.ext (by match d with | ⟨0, _⟩ => rfl | ⟨1, _⟩ => rfl)
  have el' : ∀ k : Fin 128, lidx_main_v27 (ValueIdx.ix2 p q) k = ValueIdx.ix2 p k := fun k =>
    funext fun d => Fin.ext (by match d with | ⟨0, _⟩ => rfl | ⟨1, _⟩ => rfl)
  have er' : ∀ k : Fin 128, ridx_main_v27 (ValueIdx.ix2 p q) k = ValueIdx.ix2 k q := fun k =>
    funext fun d => Fin.ext (by match d with | ⟨0, _⟩ => rfl | ⟨1, _⟩ => rfl)
  have eb : idx_main_v24 (idx_main_v25 (ValueIdx.ix2 p q)) = ValueIdx.ix1 q :=
    funext fun d => Fin.ext (by match d with | ⟨0, _⟩ => rfl)
  have eb' : idx_main_v29 (idx_main_v30 (ValueIdx.ix2 p q)) = ValueIdx.ix1 q :=
    funext fun d => Fin.ext (by match d with | ⟨0, _⟩ => rfl)
  simp only [el, er, el', er', eb, eb']
  rw [Ideal.maximumf_def, Ideal.addf_def, Ideal.addf_def, Ideal.addf_def, Ideal.ofBits_def, Ideal.ofBits_zero_f32,
    Sage.layer_apply]
  rfl

/-- The second step, entry by entry: the same sum of four and maximum with zero, over the second mean and the first
    step's result. -/
theorem ref_step_second (x0 : FVec Ideal S50000x128 .f32) (x1 : IVec S2x1600000 32) (x2 : FVec Ideal S128x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x128 .f32)
    (x9 : FVec Ideal S128 .f32) :
    val_main_v61 (F := Ideal) x0 x1 x2 x3 x4 x5 x6 x7 x8 x9
      = Sage.layer (val_main_v51 (F := Ideal) x0 x1 x2 x3 x4 x5) (val_main_v32 (F := Ideal) x0 x1 x2 x3 x4 x5)
          x6 x8 x7 x9 := by
  funext i
  obtain ⟨p, q, rfl⟩ : ∃ (p : Fin 50000) (q : Fin 128), i = ValueIdx.ix2 p q := ⟨i 0, i 1, ValueIdx.eq_ix2 i⟩
  rw [val_main_v61_apply, val_main_v60_apply, val_main_v59_apply, val_main_v58_apply, val_main_v57_apply,
    val_main_v56_apply, val_main_v55_apply, val_main_v54_apply, val_main_v53_apply, val_main_v52_apply,
    val_main_call1_v0_apply, val_main_call1_cst_apply]
  generalize val_main_v51 (F := Ideal) x0 x1 x2 x3 x4 x5 = a
  generalize val_main_v32 (F := Ideal) x0 x1 x2 x3 x4 x5 = h
  -- the entries a product reads along the contracted axis, and the bias entry, at (p, q)
  have el : ∀ k : Fin 128, lidx_main_v52 (ValueIdx.ix2 p q) k = ValueIdx.ix2 p k := fun k =>
    funext fun d => Fin.ext (by match d with | ⟨0, _⟩ => rfl | ⟨1, _⟩ => rfl)
  have er : ∀ k : Fin 128, ridx_main_v52 (ValueIdx.ix2 p q) k = ValueIdx.ix2 k q := fun k =>
    funext fun d => Fin.ext (by match d with | ⟨0, _⟩ => rfl | ⟨1, _⟩ => rfl)
  have el' : ∀ k : Fin 128, lidx_main_v56 (ValueIdx.ix2 p q) k = ValueIdx.ix2 p k := fun k =>
    funext fun d => Fin.ext (by match d with | ⟨0, _⟩ => rfl | ⟨1, _⟩ => rfl)
  have er' : ∀ k : Fin 128, ridx_main_v56 (ValueIdx.ix2 p q) k = ValueIdx.ix2 k q := fun k =>
    funext fun d => Fin.ext (by match d with | ⟨0, _⟩ => rfl | ⟨1, _⟩ => rfl)
  have eb : idx_main_v53 (idx_main_v54 (ValueIdx.ix2 p q)) = ValueIdx.ix1 q :=
    funext fun d => Fin.ext (by match d with | ⟨0, _⟩ => rfl)
  have eb' : idx_main_v58 (idx_main_v59 (ValueIdx.ix2 p q)) = ValueIdx.ix1 q :=
    funext fun d => Fin.ext (by match d with | ⟨0, _⟩ => rfl)
  simp only [el, er, el', er', eb, eb']
  rw [Ideal.maximumf_def, Ideal.addf_def, Ideal.addf_def, Ideal.addf_def, Ideal.ofBits_def, Ideal.ofBits_zero_f32,
    Sage.layer_apply]
  rfl

/-- The read-out, entry by entry: a row of the second step's result times the output weights, plus the output bias. -/
theorem ref_readout (x0 : FVec Ideal S50000x128 .f32) (x1 : IVec S2x1600000 32) (x2 : FVec Ideal S128x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x128 .f32)
    (x9 : FVec Ideal S128 .f32) (x10 : FVec Ideal S128x40 .f32) (x11 : FVec Ideal S40 .f32) :
    val_main_v65 (F := Ideal) x0 x1 x2 x3 x4 x5 x6 x7 x8 x9 x10 x11
      = Sage.proj (val_main_v61 (F := Ideal) x0 x1 x2 x3 x4 x5 x6 x7 x8 x9) x10 x11 := by
  funext i
  obtain ⟨p, q, rfl⟩ : ∃ (p : Fin 50000) (q : Fin 40), i = ValueIdx.ix2 p q := ⟨i 0, i 1, ValueIdx.eq_ix2 i⟩
  rw [val_main_v65_apply, val_main_v64_apply, val_main_v63_apply, val_main_v62_apply]
  generalize val_main_v61 (F := Ideal) x0 x1 x2 x3 x4 x5 x6 x7 x8 x9 = h
  have el : ∀ k : Fin 128, lidx_main_v62 (ValueIdx.ix2 p q) k = ValueIdx.ix2 p k := fun k =>
    funext fun d => Fin.ext (by match d with | ⟨0, _⟩ => rfl | ⟨1, _⟩ => rfl)
  have er : ∀ k : Fin 128, ridx_main_v62 (ValueIdx.ix2 p q) k = ValueIdx.ix2 k q := fun k =>
    funext fun d => Fin.ext (by match d with | ⟨0, _⟩ => rfl | ⟨1, _⟩ => rfl)
  have eb : idx_main_v63 (idx_main_v64 (ValueIdx.ix2 p q)) = ValueIdx.ix1 q :=
    funext fun d => Fin.ext (by match d with | ⟨0, _⟩ => rfl)
  simp only [el, er, eb]
  rw [Ideal.addf_def, Sage.proj_apply]
  rfl

/-- The reference's result: two steps over the neighbourhood mean, then the read-out. -/
theorem result_eq (x0 : FVec Ideal S50000x128 .f32) (x1 : IVec S2x1600000 32) (x2 : FVec Ideal S128x128 .f32) (x3 : FVec Ideal S128 .f32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S128x40 .f32) (x11 : FVec Ideal S40 .f32) :
    val_main_v65 (F := Ideal) x0 x1 x2 x3 x4 x5 x6 x7 x8 x9 x10 x11
      = Sage.proj (Sage.layer (agg x1 (Sage.layer (agg x1 x0) x0 x2 x4 x3 x5)) (Sage.layer (agg x1 x0) x0 x2 x4 x3 x5) x6 x8 x7 x9) x10 x11 := by
  rw [ref_readout, ref_step_second, ref_mean_second, ref_step_first, ref_mean_first]

end Cert.ReferenceIdeal.Dense

end
-- ==== Proof.PreRange.lean ====
/-
  What the precondition says of the edge list.

  The precondition is an `and` of one-bit results: that every float input is finite, and last that every source index
  `s` (row 0 of the edge list) satisfies `-50000 ≤ s` and `s < 50000` as signed 32-bit numbers.  The last conjunct is an
  and-reduction, over all edges, of the `and` of the two compare bits; that it is 1 says both compares are 1 on every
  edge.  (`-50000` is the word 4294917296.)
-/
import proofs.«418907_j13572096655879_1_alg».proof.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic

variable [Facts] {F : FTy → Type} [FloatOps F]

/-- Row 0 of the edge list, as the precondition reads it: every edge's source node. -/
def srcRow (ei : IVec S2x1600000 32) : IVec S1600000 32 :=
  shapeCast S1600000 (extractStridedSlice S1x1600000 ![0, 0] ei slices_S2x1600000_S1x1600000_0_0) shapeCasts_S1x1600000_S1600000

instance : Subsingleton S_.Idx := ⟨fun _ _ => funext fun d => d.elim0⟩

/-- Under the precondition every source index is admitted: at least -50000 and below 50000. -/
theorem src_admitted (a0 : FVec F S50000x128 .f32) (a1 : IVec S2x1600000 32) (a2 : FVec F S128x128 .f32) (a3 : FVec F S128 .f32)
    (a4 : FVec F S128x128 .f32) (a5 : FVec F S128 .f32) (a6 : FVec F S128x128 .f32) (a7 : FVec F S128 .f32)
    (a8 : FVec F S128x128 .f32) (a9 : FVec F S128 .f32) (a10 : FVec F S128x40 .f32) (a11 : FVec F S40 .f32)
    (h : fn (F := F) a0 a1 a2 a3 a4 a5 a6 a7 a8 a9 a10 a11 = fun _ => 1#1) (e : S1600000.Idx) :
    IntOp.cmpi .sge (srcRow a1 e) 4294917296#32 = 1#1 ∧ IntOp.cmpi .slt (srcRow a1 e) 50000#32 = 1#1 := by
  have h0 := congrFun h ValueIdx.ix0
  dsimp only [fn, fn_part1, fn_part2, fn_part3] at h0
  have h1 := (IntOp.andi_eq_one.1 h0).2
  have h2 := Host.reduce_andi_all _ _ _ _ _ h1 e
  exact IntOp.andi_eq_one.1 h2

end Cert.Pre_finite_inputs.Range

end
-- ==== Proof.lean ====
/-
  A two-layer graph-convolution network on 50000 nodes and 1.6 million edges, computed two ways, is one function on the
  extended reals.

  Both programs form, for the current node features, the mean over each node's incoming edges of the source node's
  features (a row gather along the edges, a scatter-add of the rows and of the edge count, a division), and then one
  step: the mean times a weight matrix plus a bias, plus the features times a second weight matrix plus a second bias,
  and the positive part.  They do this twice and end with a linear read-out.

  The two differ in three ways.  The first program computes each step (and the read-out, fused with the second step) in
  blocks of 2000 rows, with the operands narrowed to a shorter float format first: on the extended reals a change of
  format is the identity, and a step is row-wise, so 25 blocks of rows make the whole array.  It adds the two products
  before the two biases, where the second adds product, bias, product, bias: addition of extended reals is commutative
  and associative.  And its row gather keeps a row only where the source index, counted from the end when negative,
  lies in the table, filling with a not-a-number word elsewhere, where the second program's gather takes the nearest
  row: under the precondition every source index s has -50000 ≤ s < 50000, so the counted index always lies in
  [0, 49999], the fill is never taken, and the two gathers are the same operation on the same operands.

  No law used needs the inputs finite; of the precondition only the range of the source indices is used.
-/
import proofs.«418907_j13572096655879_1_alg».proof.Defs
import proofs.«418907_j13572096655879_1_alg».proof.Proof.Gen.Kernel
import proofs.«418907_j13572096655879_1_alg».proof.Proof.Gen.Kernel.Skeleton
import proofs.«418907_j13572096655879_1_alg».proof.Proof.Gen.Kernel.Launch
import proofs.«418907_j13572096655879_1_alg».proof.Proof.Gen.Kernel.Points
import proofs.«418907_j13572096655879_1_alg».proof.Proof.Gen.Kernel.Frame
import proofs.«418907_j13572096655879_1_alg».proof.Proof.Gen.KernelIdeal
import proofs.«418907_j13572096655879_1_alg».proof.Proof.Gen.KernelIdeal.Skeleton
import proofs.«418907_j13572096655879_1_alg».proof.Proof.Gen.KernelIdeal.Launch
import proofs.«418907_j13572096655879_1_alg».proof.Proof.Gen.KernelIdeal.Points
import proofs.«418907_j13572096655879_1_alg».proof.Proof.Gen.KernelIdeal.Frame
import proofs.«418907_j13572096655879_1_alg».proof.Proof.Gen.ReferenceIdeal
import proofs.«418907_j13572096655879_1_alg».proof.Proof.Gen.Pre_finite_inputs
import proofs.«418907_j13572096655879_1_alg».proof.Proof.Gen.ReferenceIdeal.Run
import proofs.«418907_j13572096655879_1_alg».proof.Proof.Gen.ReferenceIdeal.Read
import proofs.«418907_j13572096655879_1_alg».proof.Proof.KernelValue
import proofs.«418907_j13572096655879_1_alg».proof.Proof.RefDense
import proofs.«418907_j13572096655879_1_alg».proof.Proof.PreRange
import Idealize.ShloMosaic.Adequacy
import Idealize.ShloMosaic.Init

noncomputable section

namespace Cert.Proof

open Idealize.ShloMosaic Idealize.SL.Sem

/-- The word-level program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := by
  unfold Cert.preserves_Kernel_KernelIdeal
  exact trivial

/-- From memories that agree on the arguments both programs end with the result array at the read-out of two steps over
    the neighbourhood mean: the first by its blocks of rows and the range of the source indices, the second by reading
    its operations one at a time. -/
theorem algebraic : Cert.algebraic_KernelIdeal_ReferenceIdeal := by
  intro m ρ m' ρ' hpre hagree
  have hs : ∀ (c : Dev Cert.KernelIdeal.nD) (e : Cert.KernelIdeal.S1600000.Idx),
      IntOp.cmpi .sge (Cert.KernelIdeal.HostSide.srcRow (m ((c.tc : Thread Cert.KernelIdeal.nD Cert.KernelIdeal.τ).loc Cert.KernelIdeal.main_arg1)) e) 4294917296#32 = 1#1
        ∧ IntOp.cmpi .slt (Cert.KernelIdeal.HostSide.srcRow (m ((c.tc : Thread Cert.KernelIdeal.nD Cert.KernelIdeal.τ).loc Cert.KernelIdeal.main_arg1)) e) 50000#32 = 1#1 :=
    fun c e => Cert.Pre_finite_inputs.Range.src_admitted _ _ _ _ _ _ _ _ _ _ _ _ (hpre c) e
  refine ⟨fun c => Cert.KernelIdeal.Result.out m c, Cert.KernelIdeal.Result.run m ρ hs, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, Cert.ReferenceIdeal.Dense.result_eq]
  obtain ⟨e0, e1, e2, e3, e4, e5, e6, e7, e8, e9, e10, e11⟩ := hagree c
  rw [e0, e1, e2, e3, e4, e5, e6, e7, e8, e9, e10, e11]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
